-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x26x128 : Shape := ⟨3, ![65536, 26, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x26x128 : S_.BroadcastsInDim S65536x26x128 (![] : Fin 0 → Fin S65536x26x128.rank)
  reducesTo_S65536x26x128_S_d0_1_2 : S65536x26x128.ReducesTo [0, 1, 2] S_

variable [Facts]

def fn {F : FTy → Type} [FloatOps F] (main_arg0 : FVec F S65536x128 .f32) (main_arg1 : FVec F S65536x26x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x26x128 .f32 := Host.absf main_arg1
  let main_cst_0 : FVec F S_ .f32 := constant S_ .f32 0x7F800000#32
  let main_v5 : FVec F S65536x26x128 .f32 := broadcastInDim S65536x26x128 ![] bcast_S_S65536x26x128 main_cst_0
  let main_v6 : IVec S65536x26x128 1 := cmpf .olt main_v4 main_v5
  let main_c_1 : IVec S_ 1 := constantI S_ 1 1#1
  let main_v7 : IVec S_ 1 := (fun x v => Host.reduce IntOp.andi x v reducesTo_S65536x26x128_S_d0_1_2 h_S_) main_v6 main_c_1
  let main_v8 : IVec S_ 1 := andi main_v3 main_v7
  main_v8
-- ==== Kernel.lean ====
abbrev S65536x128 : Shape := ⟨2, ![65536, 128]⟩
abbrev S65536x26x128 : Shape := ⟨3, ![65536, 26, 128]⟩
abbrev S65536x351 : Shape := ⟨2, ![65536, 351]⟩
abbrev S256x128 : Shape := ⟨2, ![256, 128]⟩
abbrev S256x26x128 : Shape := ⟨3, ![256, 26, 128]⟩
abbrev S256x351 : Shape := ⟨2, ![256, 351]⟩
abbrev S256x1x128 : Shape := ⟨3, ![256, 1, 128]⟩
abbrev S256x27x128 : Shape := ⟨3, ![256, 27, 128]⟩
abbrev S256x27x27 : Shape := ⟨3, ![256, 27, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S65536x26x128, .f32⟩
  | .hbm, ⟨2, _⟩ => ⟨S65536x351, .f32⟩
  | .local _ .vmem, ⟨0, _⟩ => ⟨S256x128, .f32⟩
  | .local _ .vmem, ⟨1, _⟩ => ⟨S256x128, .f32⟩
  | .local _ .vmem, ⟨2, _⟩ => ⟨S256x26x128, .f32⟩
  | .local _ .vmem, ⟨3, _⟩ => ⟨S256x26x128, .f32⟩
  | .local _ .vmem, ⟨4, _⟩ => ⟨S256x351, .f32⟩
  | .local _ .vmem, ⟨5, _⟩ => ⟨S256x351, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x351 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S256x26x128_S256x26x128_0_0_0 : ∀ a, (![0, 0, 0] : Fin 3 → Nat) a + S256x26x128.size a ≤ S256x26x128.size a
  h_S256x26x128 : 0 < S256x26x128.numel
  shapeCasts_S256x128_S256x1x128 : S256x128.ShapeCasts S256x1x128
  concatenates_S256x1x128_S256x26x128_S256x27x128_d1 : Shape.Concatenates [S256x1x128, S256x26x128] S256x27x128 1
  bitsLt_bf16_f32 : FTy.bits .bf16 < FTy.bits .f32
  slices_S256x27x27_o0_0_1_S256x1x26 : S256x27x27.Slices ![0, 0, 1] S256x1x26
  shapeCasts_S256x1x26_S256x26 : S256x1x26.ShapeCasts S256x26
  slices_S256x27x27_o0_1_2_S256x1x25 : S256x27x27.Slices ![0, 1, 2] S256x1x25
  shapeCasts_S256x1x25_S256x25 : S256x1x25.ShapeCasts S256x25
  slices_S256x27x27_o0_2_3_S256x1x24 : S256x27x27.Slices ![0, 2, 3] S256x1x24
  shapeCasts_S256x1x24_S256x24 : S256x1x24.ShapeCasts S256x24
  slices_S256x27x27_o0_3_4_S256x1x23 : S256x27x27.Slices ![0, 3, 4] S256x1x23
  shapeCasts_S256x1x23_S256x23 : S256x1x23.ShapeCasts S256x23
  slices_S256x27x27_o0_4_5_S256x1x22 : S256x27x27.Slices ![0, 4, 5] S256x1x22
  shapeCasts_S256x1x22_S256x22 : S256x1x22.ShapeCasts S256x22
  slices_S256x27x27_o0_5_6_S256x1x21 : S256x27x27.Slices ![0, 5, 6] S256x1x21
  shapeCasts_S256x1x21_S256x21 : S256x1x21.ShapeCasts S256x21
  slices_S256x27x27_o0_6_7_S256x1x20 : S256x27x27.Slices ![0, 6, 7] S256x1x20
  shapeCasts_S256x1x20_S256x20 : S256x1x20.ShapeCasts S256x20
  slices_S256x27x27_o0_7_8_S256x1x19 : S256x27x27.Slices ![0, 7, 8] S256x1x19
  shapeCasts_S256x1x19_S256x19 : S256x1x19.ShapeCasts S256x19
  slices_S256x27x27_o0_8_9_S256x1x18 : S256x27x27.Slices ![0, 8, 9] S256x1x18
  shapeCasts_S256x1x18_S256x18 : S256x1x18.ShapeCasts S256x18
  slices_S256x27x27_o0_9_10_S256x1x17 : S256x27x27.Slices ![0, 9, 10] S256x1x17
  shapeCasts_S256x1x17_S256x17 : S256x1x17.ShapeCasts S256x17
  slices_S256x27x27_o0_10_11_S256x1x16 : S256x27x27.Slices ![0, 10, 11] S256x1x16
  shapeCasts_S256x1x16_S256x16 : S256x1x16.ShapeCasts S256x16
  slices_S256x27x27_o0_11_12_S256x1x15 : S256x27x27.Slices ![0, 11, 12] S256x1x15
  shapeCasts_S256x1x15_S256x15 : S256x1x15.ShapeCasts S256x15
  slices_S256x27x27_o0_12_13_S256x1x14 : S256x27x27.Slices ![0, 12, 13] S256x1x14
  shapeCasts_S256x1x14_S256x14 : S256x1x14.ShapeCasts S256x14
  slices_S256x27x27_o0_13_14_S256x1x13 : S256x27x27.Slices ![0, 13, 14] S256x1x13
  shapeCasts_S256x1x13_S256x13 : S256x1x13.ShapeCasts S256x13
  slices_S256x27x27_o0_14_15_S256x1x12 : S256x27x27.Slices ![0, 14, 15] S256x1x12
  shapeCasts_S256x1x12_S256x12 : S256x1x12.ShapeCasts S256x12
  slices_S256x27x27_o0_15_16_S256x1x11 : S256x27x27.Slices ![0, 15, 16] S256x1x11
  shapeCasts_S256x1x11_S256x11 : S256x1x11.ShapeCasts S256x11
  slices_S256x27x27_o0_16_17_S256x1x10 : S256x27x27.Slices ![0, 16, 17] S256x1x10
  shapeCasts_S256x1x10_S256x10 : S256x1x10.ShapeCasts S256x10
  slices_S256x27x27_o0_17_18_S256x1x9 : S256x27x27.Slices ![0, 17, 18] S256x1x9
  shapeCasts_S256x1x9_S256x9 : S256x1x9.ShapeCasts S256x9
  slices_S256x27x27_o0_18_19_S256x1x8 : S256x27x27.Slices ![0, 18, 19] S256x1x8
  shapeCasts_S256x1x8_S256x8 : S256x1x8.ShapeCasts S256x8
  slices_S256x27x27_o0_19_20_S256x1x7 : S256x27x27.Slices ![0, 19, 20] S256x1x7
  shapeCasts_S256x1x7_S256x7 : S256x1x7.ShapeCasts S256x7
  slices_S256x27x27_o0_20_21_S256x1x6 : S256x27x27.Slices ![0, 20, 21] S256x1x6
  shapeCasts_S256x1x6_S256x6 : S256x1x6.ShapeCasts S256x6
  slices_S256x27x27_o0_21_22_S256x1x5 : S256x27x27.Slices ![0, 21, 22] S256x1x5
  shapeCasts_S256x1x5_S256x5 : S256x1x5.ShapeCasts S256x5
  slices_S256x27x27_o0_22_23_S256x1x4 : S256x27x27.Slices ![0, 22, 23] S256x1x4
  shapeCasts_S256x1x4_S256x4 : S256x1x4.ShapeCasts S256x4
  slices_S256x27x27_o0_23_24_S256x1x3 : S256x27x27.Slices ![0, 23, 24] S256x1x3
  shapeCasts_S256x1x3_S256x3 : S256x1x3.ShapeCasts S256x3
  slices_S256x27x27_o0_24_25_S256x1x2 : S256x27x27.Slices ![0, 24, 25] S256x1x2
  shapeCasts_S256x1x2_S256x2 : S256x1x2.ShapeCasts S256x2
  slices_S256x27x27_o0_25_26_S256x1x1 : S256x27x27.Slices ![0, 25, 26] S256x1x1
  shapeCasts_S256x1x1_S256x1 : S256x1x1.ShapeCasts S256x1
  concatenates_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x351_d1 : Shape.Concatenates [S256x26, S256x25, S256x24, S256x23, S256x22, S256x21, S256x20, S256x19, S256x18, S256x17, S256x16, S256x15, S256x14, S256x13, S256x12, S256x11, S256x10, S256x9, S256x8, S256x7, S256x6, S256x5, S256x4, S256x3, S256x2, S256x1] S256x351 1
  inb_S256x351_S256x351_0_0 : ∀ a, (![0, 0] : Fin 2 → Nat) a + S256x351.size a ≤ S256x351.size a
  h_S256x351 : 0 < S256x351.numel
  dot_S256x27x128_S256x27x128_S256x27x27_2_2_1_1_0_0_wf : DotDims.WF S256x27x128 S256x27x128 S256x27x27 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S65536x128.size a
  hwx0_0 : ∀ i : grid0.Coords, EltTy.bits .f32 = 32 ∨ (Rect.block (s := S65536x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x26x128.size a ≤ S65536x26x128.size a
  hwx0_1 : ∀ i : grid0.Coords, EltTy.bits .f32 = 32 ∨ (Rect.block (s := S65536x26x128) S256x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x351.size a ≤ S65536x351.size a
  hwx0_2 : ∀ i : grid0.Coords, EltTy.bits .f32 = 32 ∨ (Rect.block (s := S65536x351) S256x351.size (cc0_transform_2 i) (hinb0_2 i)).WholeWords (EltTy.packing .f32)

variable [Facts₀]

def dot_S256x27x128_S256x27x128_S256x27x27_2_2_1_1_0_0 : DotDims S256x27x128 S256x27x128 S256x27x27 where
  lhsContracting := [2]
  rhsContracting := [2]
  lhsNonContracting := [1]
  rhsNonContracting := [1]
  lhsBatch := [0]
  rhsBatch := [0]
  wf := dot_S256x27x128_S256x27x128_S256x27x27_2_2_1_1_0_0_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x351.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x26x128 : Shape := ⟨3, ![65536, 26, 128]⟩
abbrev S65536x1x128 : Shape := ⟨3, ![65536, 1, 128]⟩
abbrev S65536x27x128 : Shape := ⟨3, ![65536, 27, 128]⟩
abbrev S65536x27x27 : Shape := ⟨3, ![65536, 27, 27]⟩
abbrev S_ : Shape := ⟨0, ![]⟩
abbrev S27x27 : Shape := ⟨2, ![27, 27]⟩
abbrev S729 : Shape := ⟨1, ![729]⟩
abbrev S351 : Shape := ⟨1, ![351]⟩
abbrev S729x1 : Shape := ⟨2, ![729, 1]⟩
abbrev S351x1 : Shape := ⟨2, ![351, 1]⟩
abbrev S351x2 : Shape := ⟨2, ![351, 2]⟩
abbrev S65536x351 : Shape := ⟨2, ![65536, 351]⟩

abbrev nBuf : Space → Nat
  | .hbm => 140
  | .vmem => 0
  | .smem => 0
  | _ => 0

abbrev hbmTy0_0 (i : Nat) : BufTy := match i % 128 with
  | 0 => ⟨S65536x128, .f32⟩
  | 1 => ⟨S65536x26x128, .f32⟩
  | 2 => ⟨S65536x1x128, .f32⟩
  | 3 => ⟨S65536x27x128, .f32⟩
  | 4 => ⟨S65536x27x27, .f32⟩
  | 5 => ⟨S_, .f32⟩
  | 6 => ⟨S27x27, .f32⟩
  | 7 => ⟨S27x27, .i32⟩
  | 8 => ⟨S_, .i32⟩
  | 9 => ⟨S27x27, .i32⟩
  | 10 => ⟨S27x27, .i32⟩
  | 11 => ⟨S27x27, .i32⟩
  | 12 => ⟨S27x27, .i1⟩
  | 13 => ⟨S_, .f32⟩
  | 14 => ⟨S27x27, .f32⟩
  | 15 => ⟨S27x27, .f32⟩
  | 16 => ⟨S_, .f32⟩
  | 17 => ⟨S27x27, .f32⟩
  | 18 => ⟨S27x27, .i1⟩
  | 19 => ⟨S729, .i1⟩
  | 20 => ⟨S729, .i32⟩
  | 21 => ⟨S_, .i32⟩
  | 22 => ⟨S_, .i32⟩
  | 23 => ⟨S729, .i32⟩
  | 24 => ⟨S_, .i32⟩
  | 25 => ⟨S351, .i32⟩
  | 26 => ⟨S_, .i32⟩
  | 27 => ⟨S_, .i32⟩
  | 28 => ⟨S729, .i32⟩
  | 29 => ⟨S729, .i32⟩
  | 30 => ⟨S_, .i32⟩
  | 31 => ⟨S729, .i32⟩
  | 32 => ⟨S729, .i1⟩
  | 33 => ⟨S_, .i32⟩
  | 34 => ⟨S729, .i32⟩
  | 35 => ⟨S729, .i32⟩
  | 36 => ⟨S729, .i32⟩
  | 37 => ⟨S729x1, .i32⟩
  | 38 => ⟨S_, .i32⟩
  | 39 => ⟨S729, .i32⟩
  | 40 => ⟨S351, .i32⟩
  | 41 => ⟨S_, .i32⟩
  | 42 => ⟨S_, .i32⟩
  | 43 => ⟨S351, .i32⟩
  | 44 => ⟨S_, .i32⟩
  | 45 => ⟨S351, .i32⟩
  | 46 => ⟨S351, .i32⟩
  | 47 => ⟨S351, .i32⟩
  | 48 => ⟨S_, .i32⟩
  | 49 => ⟨S351, .i32⟩
  | 50 => ⟨S351, .i1⟩
  | 51 => ⟨S351, .i32⟩
  | 52 => ⟨S351, .i32⟩
  | 53 => ⟨S_, .i32⟩
  | 54 => ⟨S351, .i32⟩
  | 55 => ⟨S351, .i1⟩
  | 56 => ⟨S351, .i1⟩
  | 57 => ⟨S_, .i32⟩
  | 58 => ⟨S351, .i32⟩
  | 59 => ⟨S351, .i32⟩
  | 60 => ⟨S351, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S351, .i32⟩
  | 68 => ⟨S351, .i32⟩
  | 69 => ⟨S_, .i32⟩
  | 70 => ⟨S351, .i32⟩
  | 71 => ⟨S351, .i1⟩
  | 72 => ⟨S_, .i32⟩
  | 73 => ⟨S351, .i32⟩
  | 74 => ⟨S351, .i1⟩
  | 75 => ⟨S_, .i32⟩
  | 76 => ⟨S_, .i1⟩
  | 77 => ⟨S351, .i1⟩
  | 78 => ⟨S351, .i1⟩
  | 79 => ⟨S351, .i1⟩
  | 80 => ⟨S351, .i32⟩
  | 81 => ⟨S351, .i32⟩
  | 82 => ⟨S351, .i32⟩
  | 83 => ⟨S_, .i32⟩
  | 84 => ⟨S351, .i32⟩
  | 85 => ⟨S351, .i32⟩
  | 86 => ⟨S351, .i32⟩
  | 87 => ⟨S_, .i32⟩
  | 88 => ⟨S351, .i32⟩
  | 89 => ⟨S351, .i1⟩
  | 90 => ⟨S351, .i32⟩
  | 91 => ⟨S351, .i32⟩
  | 92 => ⟨S_, .i32⟩
  | 93 => ⟨S351, .i32⟩
  | 94 => ⟨S351, .i1⟩
  | 95 => ⟨S351, .i1⟩
  | 96 => ⟨S_, .i32⟩
  | 97 => ⟨S351, .i32⟩
  | 98 => ⟨S351, .i32⟩
  | 99 => ⟨S351, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S351, .i32⟩
  | 107 => ⟨S351, .i32⟩
  | 108 => ⟨S_, .i32⟩
  | 109 => ⟨S351, .i32⟩
  | 110 => ⟨S351, .i1⟩
  | 111 => ⟨S_, .i32⟩
  | 112 => ⟨S351, .i32⟩
  | 113 => ⟨S351, .i1⟩
  | 114 => ⟨S_, .i32⟩
  | 115 => ⟨S_, .i1⟩
  | 116 => ⟨S351, .i1⟩
  | 117 => ⟨S351, .i1⟩
  | 118 => ⟨S351, .i1⟩
  | 119 => ⟨S351, .i32⟩
  | 120 => ⟨S351, .i32⟩
  | 121 => ⟨S351, .i32⟩
  | 122 => ⟨S_, .i32⟩
  | 123 => ⟨S351, .i32⟩
  | 124 => ⟨S351, .i1⟩
  | 125 => ⟨S_, .i32⟩
  | 126 => ⟨S351, .i32⟩
  | 127 => ⟨S351, .i32⟩
  | _ => ⟨S65536x128, .f32⟩

abbrev hbmTy0_1 (i : Nat) : BufTy := match i % 128 with
  | 0 => ⟨S351, .i32⟩
  | 1 => ⟨S_, .i32⟩
  | 2 => ⟨S351, .i32⟩
  | 3 => ⟨S351, .i1⟩
  | 4 => ⟨S_, .i32⟩
  | 5 => ⟨S351, .i32⟩
  | 6 => ⟨S351, .i32⟩
  | 7 => ⟨S351, .i32⟩
  | 8 => ⟨S351x1, .i32⟩
  | 9 => ⟨S351x1, .i32⟩
  | 10 => ⟨S351x2, .i32⟩
  | 11 => ⟨S65536x351, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_call3_call0_c : Ref sig .tc := ⟨.hbm, 41, rfl⟩
abbrev main_call3_call0_v0 : Ref sig .tc := ⟨.hbm, 42, rfl⟩
abbrev main_v18 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v19 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v20 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v21 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v22 : Ref sig .tc := ⟨.hbm, 121, rfl⟩
abbrev main_c_9 : Ref sig .tc := ⟨.hbm, 122, rfl⟩
abbrev main_v23 : Ref sig .tc := ⟨.hbm, 123, rfl⟩
abbrev main_v24 : Ref sig .tc := ⟨.hbm, 124, rfl⟩
abbrev main_c_10 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩

abbrev nD : Nat := 1
abbrev τ : Topo := Topo.v7x

variable {F : FTy → Type} [FloatOps F]

class Facts₀ : Prop where
  bcast_S65536x128_S65536x1x128_0_2 : S65536x128.BroadcastsInDim S65536x1x128 (![0, 2] : Fin 2 → Fin S65536x1x128.rank)
  concatenates_S65536x1x128_S65536x26x128_S65536x27x128_d1 : Shape.Concatenates [S65536x1x128, S65536x26x128] S65536x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S351 : S_.BroadcastsInDim S351 (![] : Fin 0 → Fin S351.rank)
  bcast_S_S729 : S_.BroadcastsInDim S729 (![] : Fin 0 → Fin S729.rank)
  bcast_S729_S729x1_0 : S729.BroadcastsInDim S729x1 (![0] : Fin 1 → Fin S729x1.rank)
  reduceWindows_S351_S351_w351s1p350_0 : S351.ReduceWindows (![351] : Fin 1 → Nat) ![1] ![350] ![0] S351
  bcast_S351_S351x1_0 : S351.BroadcastsInDim S351x1 (![0] : Fin 1 → Fin S351x1.rank)
  concatenates_S351x1_S351x1_S351x2_d1 : Shape.Concatenates [S351x1, S351x1] S351x2 1
  dot_S65536x27x128_S65536x27x128_S65536x27x27_2_2_1_1_0_0_wf : DotDims.WF S65536x27x128 S65536x27x128 S65536x27x27 [2] [2] [1] [1] [0] [0]
  scatter_S351_S729x1_S729_n_0_0_1_wf : ScatterDims.WF S351 S729x1 S729 [] [0] [0] 1
  gather_S65536x27x27_S351x2_S65536x351_0_12_n_n_12_1_6553611_wf : GatherDims.WF S65536x27x27 S351x2 S65536x351 [0] [1, 2] [] [1, 2] [] 1 ![65536, 1, 1]

variable [Facts₀]

def dot_S65536x27x128_S65536x27x128_S65536x27x27_2_2_1_1_0_0 : DotDims S65536x27x128 S65536x27x128 S65536x27x27 where
  lhsContracting := [2]
  rhsContracting := [2]
  lhsNonContracting := [1]
  rhsNonContracting := [1]
  lhsBatch := [0]
  rhsBatch := [0]
  wf := dot_S65536x27x128_S65536x27x128_S65536x27x27_2_2_1_1_0_0_wf
def scatter_S351_S729x1_S729_n_0_0_1 : ScatterDims S351 S729x1 S729 where
  updateWindowDims := []
  insertedWindowDims := [0]
  scatterDimsToOperandDims := [0]
  indexVectorDim := 1
  wf := scatter_S351_S729x1_S729_n_0_0_1_wf
def gather_S65536x27x27_S351x2_S65536x351_0_12_n_n_12_1_6553611 : GatherDims S65536x27x27 S351x2 S65536x351 where
  offsetDims := [0]
  collapsedSliceDims := [1, 2]
  operandBatchingDims := []
  startIndicesBatchingDims := []
  startIndexMap := [1, 2]
  indexVectorDim := 1
  sliceSizes := ![65536, 1, 1]
  wf := gather_S65536x27x27_S351x2_S65536x351_0_12_n_n_12_1_6553611_wf

class Facts : Prop extends Facts₀ where

variable [Facts]
-- ==== Proof.Pairs.lean ====
/-
  The pairs of distinct features, and the result both programs compute.

  There are 27 features per batch row: feature 0 is the dense row, feature f ≥ 1 is sparse feature f - 1, each a
  vector of 128 numbers. The result holds, per batch row, the 351 = 27·26/2 inner products ⟨feature i, feature j⟩ of the
  pairs i < j, the pairs in row-major order: (0,1), …, (0,26), (1,2), …, (25,26). Pair number p lies in row
  `rowOf p` — the i with `off i ≤ p < off (i+1)`, where `off i = 26 + 25 + … + (27 - i)` pairs come before row i — at column
  `colOf p = i + 1 + (p - off i)`; in the 27 × 27 matrix read row by row it is entry number `27 · rowOf p + colOf p`.
-/
import Idealize.ShloMosaic.Lib.ValueIdx

noncomputable section

open scoped BigOperators

namespace Cert.Tri

open Idealize.ShloMosaic Idealize.ShloMosaic.ValueIdx

/-- The number of pairs (i', j) with i' < i and i' < j < 27: 26 + 25 + … + (27 - i) = i (53 - i) / 2. -/
def off (i : Nat) : Nat := i * (53 - i) / 2

/-- The row of pair number p: how many of the rows 1, …, 26 begin at or before p. -/
def rowOf (p : Nat) : Nat := (List.range 26).countP fun i => decide (off (i + 1) ≤ p)

/-- The column of pair number p. -/
def colOf (p : Nat) : Nat := rowOf p + 1 + (p - off (rowOf p))

/-- Pair number p lies in its row's span … -/
theorem off_rowOf_le : ∀ p : Fin 351, off (rowOf p.val) ≤ p.val := by decide
/-- … and before the next row's. -/
theorem lt_off_rowOf_succ : ∀ p : Fin 351, p.val < off (rowOf p.val + 1) := by decide
/-- Rows are 0 … 25, -/
theorem rowOf_lt : ∀ p : Fin 351, rowOf p.val < 26 := by decide
/-- columns at most 26, -/
theorem colOf_lt : ∀ p : Fin 351, colOf p.val < 27 := by decide
/-- and the column is past the row. -/
theorem rowOf_lt_colOf : ∀ p : Fin 351, rowOf p.val < colOf p.val := by decide
/-- Row i has 26 - i pairs. -/
theorem off_succ : ∀ i : Fin 26, off (i.val + 1) = off i.val + (26 - i.val) := by decide

/-- The number of pairs among entries 0 … k of the 27 × 27 matrix read row by row: all of the rows before entry k's
    row k / 27, and in that row the columns after the diagonal up to k's column k % 27. -/
def cnt (k : Nat) : Nat := off (k / 27) + (k % 27 - k / 27)

theorem cnt_zero : cnt 0 = 0 := by decide
/-- Entry k + 1 adds one exactly when it is a pair: its row is before its column. -/
theorem cnt_succ : ∀ k : Fin 728, cnt (k.val + 1) = cnt k.val + if (k.val + 1) / 27 < (k.val + 1) % 27 then 1 else 0 := by decide
/-- There are 351 pairs in all. -/
theorem cnt_le : ∀ k : Fin 729, cnt k.val ≤ 351 := by decide
/-- Up to and including pair number p's own entry there are p + 1 pairs, -/
theorem cnt_pos : ∀ p : Fin 351, cnt (27 * rowOf p.val + colOf p.val) = p.val + 1 := by decide
/-- and one entry earlier there are p. -/
theorem cnt_pos_pred : ∀ p : Fin 351, cnt (27 * rowOf p.val + colOf p.val - 1) = p.val := by decide
theorem pos_lt : ∀ p : Fin 351, 27 * rowOf p.val + colOf p.val < 729 := by decide
theorem pos_pos : ∀ p : Fin 351, 0 < 27 * rowOf p.val + colOf p.val := by decide

/-- The row of pair p as a feature number. -/
def row (p : Fin 351) : Fin 27 := ⟨rowOf p.val, Nat.lt_succ_of_lt (rowOf_lt p)⟩
/-- The column of pair p as a feature number. -/
def col (p : Fin 351) : Fin 27 := ⟨colOf p.val, colOf_lt p⟩

abbrev SDense : Shape := ⟨2, ![65536, 128]⟩
abbrev SSparse : Shape := ⟨3, ![65536, 26, 128]⟩
abbrev SOut : Shape := ⟨2, ![65536, 351]⟩

/-- Entry k of feature f of batch row b: the dense row for f = 0, sparse feature f - 1 otherwise. -/
def feat (x0 : FVec Ideal SDense .f32) (x1 : FVec Ideal SSparse .f32) (b : Fin 65536) (f : Fin 27) (k : Fin 128) : EReal :=
  if h : f.val = 0 then x0 (ix2 b k) else x1 (ix3 b (⟨f.val - 1, by have := f.isLt; omega⟩ : Fin 26) k)

/-- The inner product of features f and g of batch row b, over the extended reals. -/
def gram (x0 : FVec Ideal SDense .f32) (x1 : FVec Ideal SSparse .f32) (b : Fin 65536) (f g : Fin 27) : EReal :=
  ∑ k : Fin 128, feat x0 x1 b f k * feat x0 x1 b g k

/-- The result: at (b, p) the inner product of the features of pair p in batch row b. -/
def G (x0 : FVec Ideal SDense .f32) (x1 : FVec Ideal SSparse .f32) : FVec Ideal SOut .f32 :=
  fun i => gram x0 x1 (i 0) (row (i 1)) (col (i 1))

theorem G_apply (x0 : FVec Ideal SDense .f32) (x1 : FVec Ideal SSparse .f32) (b : Fin 65536) (p : Fin 351) :
    G x0 x1 (ix2 b p) = gram x0 x1 b (row p) (col p) := rfl

end Cert.Tri

end
-- ==== Proof.KernelBlock.lean ====
/-
  One block of the kernel's output: from a block of 256 batch rows of the dense and sparse inputs the body leaves, at
  (b, p), the inner product of features `row p` and `col p` of row b — the matrix product of the 27 × 128 feature
  matrix with its transpose, whose row i from column i + 1 on is laid at columns `off i` … `off (i + 1) - 1`.
-/
import proofs.«147877_j790273983046_1_alg».proof.Proof.Gen.KernelIdeal.Frame
import proofs.«147877_j790273983046_1_alg».proof.Proof.Pairs
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- Entry k of feature f of row b of a block: the dense row for f = 0, sparse feature f - 1 otherwise. -/
def featB (x0 : Vec Ideal S256x128 .f32) (x1 : Vec Ideal S256x26x128 .f32) (b : Fin 256) (f : Fin 27) (k : Fin 128) : EReal :=
  if h : f.val = 0 then x0 (ix2 b k) else x1 (ix3 b (⟨f.val - 1, by have := f.isLt; omega⟩ : Fin 26) k)

/-! ## Layout operations at an index: a unit axis in the middle, and a slice along two axes -/

section Layout
variable {α : Type}

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A rank-3 array cut along axes 1 and 2 from `(o1, o2)` reads, at `(a, u, j)`, the source at `(a, k1, k2)` with
    `k1 = o1 + u` and `k2 = o2 + j`. -/
theorem slice3_axes12_apply {n0 n1 n2 m1 m2 : Nat} (o1 o2 : Nat) (X : (⟨3, ![n0, n1, n2]⟩ : Shape).Idx → α)
    (h : (⟨3, ![n0, n1, n2]⟩ : Shape).Slices ![0, o1, o2] ⟨3, ![n0, m1, m2]⟩)
    (a : Fin n0) (u : Fin m1) (j : Fin m2) (k1 : Fin n1) (k2 : Fin n2) (hk1 : k1.val = o1 + u.val) (hk2 : k2.val = o2 + j.val) :
    extractStridedSlice ⟨3, ![n0, m1, m2]⟩ ![0, o1, o2] X h (ix3 a u j) = X (ix3 a k1 k2) :=
  extractStridedSlice_apply _ _ _ _ _ (fun ax => by
    match ax with
    | ⟨0, _⟩ => exact (Nat.zero_add _).symm
    | ⟨1, _⟩ => exact hk1
    | ⟨2, _⟩ => exact hk2)

/-- Row `o1` of each matrix of a stack from column `o2` on, as a matrix: the slice of sizes `[n0, 1, n]` at `(0, o1, o2)` with its unit
    axis dropped reads, at `(a, j)`, the stack at `(a, o1, o2 + j)`. -/
theorem rowSlice_apply {n0 n1 n2 n : Nat} (o1 o2 : Nat) (X : (⟨3, ![n0, n1, n2]⟩ : Shape).Idx → α)
    (hs : (⟨3, ![n0, n1, n2]⟩ : Shape).Slices ![0, o1, o2] ⟨3, ![n0, 1, n]⟩)
    (hc : (⟨3, ![n0, 1, n]⟩ : Shape).ShapeCasts ⟨2, ![n0, n]⟩)
    (a : Fin n0) (j : Fin n) (k1 : Fin n1) (k2 : Fin n2) (hk1 : k1.val = o1) (hk2 : k2.val = o2 + j.val) :
    shapeCast ⟨2, ![n0, n]⟩ (extractStridedSlice ⟨3, ![n0, 1, n]⟩ ![0, o1, o2] X hs) hc (ix2 a j) = X (ix3 a k1 k2) :=
  (shapeCast_a1b_ab_apply _ hc a j).trans (slice3_axes12_apply o1 o2 X hs a 0 j k1 k2 hk1 hk2)

end Layout

/-! ## The 27 features of a row, side by side -/

/-- The dense row as feature 0 before the 26 sparse features reads, at `(b, f, k)`, entry k of feature f of row b. -/
theorem combined_apply (x0 : Vec Ideal S256x128 .f32) (x1 : Vec Ideal S256x26x128 .f32) (b : Fin 256) (f : Fin 27) (k : Fin 128) :
    concatenate S256x27x128 1 [⟨S256x1x128, shapeCast S256x1x128 x0 shapeCasts_S256x128_S256x1x128⟩, ⟨S256x26x128, x1⟩]
        concatenates_S256x1x128_S256x26x128_S256x27x128_d1 (ix3 b f k)
      = featB x0 x1 b f k := by
  unfold featB
  by_cases hf : f.val = 0
  · rw [dif_pos hf]
    refine (concatenate_pair_apply_left (t := S256x27x128) (s₁ := S256x1x128) (s₂ := S256x26x128) (1 : Fin 3) _ _ _ (ix3 b f k) rfl (ix3 b (0 : Fin 1) k) (fun ax => by
      match ax with
      | ⟨0, _⟩ => rfl
      | ⟨1, _⟩ => exact hf.symm
      | ⟨2, _⟩ => rfl)).trans ?_
    exact shapeCast_ab_a1b_apply x0 _ b 0 k
  · rw [dif_neg hf]
    exact concatenate_pair_apply_right (t := S256x27x128) (s₁ := S256x1x128) (s₂ := S256x26x128) (1 : Fin 3) _ _ _ (ix3 b f k) rfl rfl
      (ix3 b (⟨f.val - 1, by have := f.isLt; omega⟩ : Fin 26) k) (fun ax hax => by
        match ax with
        | ⟨0, _⟩ => rfl
        | ⟨1, _⟩ => exact absurd rfl hax
        | ⟨2, _⟩ => rfl) (by show f.val - 1 + 1 = f.val; omega)

/-! ## The matrix product: the operands' indices, axis by axis -/

theorem lhs_gram_0 (i : S256x27x27.Idx) (q : dot_S256x27x128_S256x27x128_S256x27x27_2_2_1_1_0_0.contr.Idx) :
    (dot_S256x27x128_S256x27x128_S256x27x27_2_2_1_1_0_0.lhsIdx i q 0).val = (i 0).val := by
  unfold DotDims.lhsIdx
  rw [dif_pos (show (0 : Fin S256x27x128.rank) ∈ dot_S256x27x128_S256x27x128_S256x27x27_2_2_1_1_0_0.lhsBatch by decide)]
  rfl
theorem lhs_gram_1 (i : S256x27x27.Idx) (q : dot_S256x27x128_S256x27x128_S256x27x27_2_2_1_1_0_0.contr.Idx) :
    (dot_S256x27x128_S256x27x128_S256x27x27_2_2_1_1_0_0.lhsIdx i q 1).val = (i 1).val := by
  unfold DotDims.lhsIdx
  rw [dif_neg (show ¬(1 : Fin S256x27x128.rank) ∈ dot_S256x27x128_S256x27x128_S256x27x27_2_2_1_1_0_0.lhsBatch by decide),
    dif_pos (show (1 : Fin S256x27x128.rank) ∈ dot_S256x27x128_S256x27x128_S256x27x27_2_2_1_1_0_0.lhsNonContracting by decide)]
  rfl
theorem lhs_gram_2 (i : S256x27x27.Idx) (q : dot_S256x27x128_S256x27x128_S256x27x27_2_2_1_1_0_0.contr.Idx) :
    (dot_S256x27x128_S256x27x128_S256x27x27_2_2_1_1_0_0.lhsIdx i q 2).val = (q ⟨0, by decide⟩).val :=
  dot_S256x27x128_S256x27x128_S256x27x27_2_2_1_1_0_0.lhsIdx_val_of_single rfl i q
theorem rhs_gram_0 (i : S256x27x27.Idx) (q : dot_S256x27x128_S256x27x128_S256x27x27_2_2_1_1_0_0.contr.Idx) :
    (dot_S256x27x128_S256x27x128_S256x27x27_2_2_1_1_0_0.rhsIdx i q 0).val = (i 0).val := by
  unfold DotDims.rhsIdx
  rw [dif_pos (show (0 : Fin S256x27x128.rank) ∈ dot_S256x27x128_S256x27x128_S256x27x27_2_2_1_1_0_0.rhsBatch by decide)]
  rfl
theorem rhs_gram_1 (i : S256x27x27.Idx) (q : dot_S256x27x128_S256x27x128_S256x27x27_2_2_1_1_0_0.contr.Idx) :
    (dot_S256x27x128_S256x27x128_S256x27x27_2_2_1_1_0_0.rhsIdx i q 1).val = (i 2).val := by
  unfold DotDims.rhsIdx
  rw [dif_neg (show ¬(1 : Fin S256x27x128.rank) ∈ dot_S256x27x128_S256x27x128_S256x27x27_2_2_1_1_0_0.rhsBatch by decide),
    dif_pos (show (1 : Fin S256x27x128.rank) ∈ dot_S256x27x128_S256x27x128_S256x27x27_2_2_1_1_0_0.rhsNonContracting by decide)]
  rfl
theorem rhs_gram_2 (i : S256x27x27.Idx) (q : dot_S256x27x128_S256x27x128_S256x27x27_2_2_1_1_0_0.contr.Idx) :
    (dot_S256x27x128_S256x27x128_S256x27x27_2_2_1_1_0_0.rhsIdx i q 2).val = (q ⟨0, by decide⟩).val :=
  dot_S256x27x128_S256x27x128_S256x27x27_2_2_1_1_0_0.rhsIdx_val_of_single rfl i q

/-- The product of the feature matrix with its transpose, entry (f, g) of row b: the inner product of features f and g. -/
theorem gram_apply (x0 : Vec Ideal S256x128 .f32) (x1 : Vec Ideal S256x26x128 .f32) (b : Fin 256) (f g : Fin 27) :
    k0_pay2 (F := Ideal) x0 x1 (ix3 b f g) = ∑ k : Fin 128, featB x0 x1 b f k * featB x0 x1 b g k := by
  unfold k0_pay2
  simp only [matmul]
  rw [Ideal.matmul_constant_zero_apply,
    ← Equiv.sum_comp (contrEquiv1 dot_S256x27x128_S256x27x128_S256x27x27_2_2_1_1_0_0 128 rfl rfl).symm]
  refine Finset.sum_congr rfl fun k _ => ?_
  have hk := contrEquiv1_symm_val dot_S256x27x128_S256x27x128_S256x27x27_2_2_1_1_0_0 128 rfl rfl k
  have el : dot_S256x27x128_S256x27x128_S256x27x27_2_2_1_1_0_0.lhsIdx (ix3 b f g)
      ((contrEquiv1 dot_S256x27x128_S256x27x128_S256x27x27_2_2_1_1_0_0 128 rfl rfl).symm k) = ix3 b f k :=
    funext fun a => Fin.ext (by
      match a with
      | ⟨0, _⟩ => exact lhs_gram_0 _ _
      | ⟨1, _⟩ => exact lhs_gram_1 _ _
      | ⟨2, _⟩ => exact (lhs_gram_2 _ _).trans hk)
  have er : dot_S256x27x128_S256x27x128_S256x27x27_2_2_1_1_0_0.rhsIdx (ix3 b f g)
      ((contrEquiv1 dot_S256x27x128_S256x27x128_S256x27x27_2_2_1_1_0_0 128 rfl rfl).symm k) = ix3 b g k :=
    funext fun a => Fin.ext (by
      match a with
      | ⟨0, _⟩ => exact rhs_gram_0 _ _
      | ⟨1, _⟩ => exact rhs_gram_1 _ _
      | ⟨2, _⟩ => exact (rhs_gram_2 _ _).trans hk)
  rw [el, er, truncf_apply, truncf_apply, combined_apply, combined_apply]

/-! ## The 26 rows of the strict upper triangle, end to end -/

/-- A concatenation of matrices of 256 rows along the columns, read at column p, is its k-th piece at column q when
    the pieces before it hold `pre` columns and `pre + q = p`. -/
theorem concat_col (xs : List ((s : Shape) × (s.Idx → EReal))) (h : Shape.Concatenates (xs.map (·.1)) S256x351 1)
    (b : Fin 256) (p : Fin 351) (k : Nat) (n : Nat) (x₁ : (⟨2, ![256, n]⟩ : Shape).Idx → EReal)
    (hxk : xs[k]? = some ⟨⟨2, ![256, n]⟩, x₁⟩) (pre : Nat)
    (hpre : (((xs.take k).map (·.1)).map fun s => if h : s.rank = S256x351.rank then s.size ((1 : Fin S256x351.rank).cast h.symm) else 0).sum = pre)
    (q : Fin n) (hq : pre + q.val = p.val) :
    concatenate S256x351 1 xs h (ix2 b p) = x₁ (ix2 b q) := by
  obtain ⟨hk, hxk'⟩ := List.getElem?_eq_some_iff.mp hxk
  exact concatenate_apply_piece (t := S256x351) (1 : Fin 2) xs h (ix2 b p) k hk _ x₁ hxk' rfl pre hpre (ix2 b q)
    (fun ax hax => by
      match ax with
      | ⟨0, _⟩ => rfl
      | ⟨1, _⟩ => exact absurd rfl hax) hq

/-- The shapes of the 26 pieces: row i of the triangle has 26 - i entries. -/
abbrev rowShapes : List Shape :=
  [S256x26, S256x25, S256x24, S256x23, S256x22, S256x21, S256x20, S256x19, S256x18, S256x17, S256x16, S256x15, S256x14,
    S256x13, S256x12, S256x11, S256x10, S256x9, S256x8, S256x7, S256x6, S256x5, S256x4, S256x3, S256x2, S256x1]

/-- Rows 0 … k - 1 hold `off k` columns between them. -/
theorem rowShapes_before : ∀ k : Fin 27,
    ((rowShapes.take k.val).map fun s => if h : s.rank = S256x351.rank then s.size ((1 : Fin S256x351.rank).cast h.symm) else 0).sum
      = Cert.Tri.off k.val := by decide

/-- When the pieces have those shapes and the k-th is row k of each matrix of a stack X from column k + 1 on, a column p in
    that piece's span, `off k ≤ p < off (k + 1)`, reads X at row k, column k + 1 + (p - off k). -/
theorem concat_rows_col (X : (⟨3, ![256, 27, 27]⟩ : Shape).Idx → EReal) (xs : List ((s : Shape) × (s.Idx → EReal)))
    (h : Shape.Concatenates (xs.map (·.1)) S256x351 1) (b : Fin 256) (p : Fin 351) (k n o2 : Nat) (r c : Fin 27) (hr : r.val = k)
    (hs : (⟨3, ![256, 27, 27]⟩ : Shape).Slices ![0, k, o2] ⟨3, ![256, 1, n]⟩)
    (hcast : (⟨3, ![256, 1, n]⟩ : Shape).ShapeCasts ⟨2, ![256, n]⟩)
    (hxk : xs[k]? = some ⟨⟨2, ![256, n]⟩, shapeCast ⟨2, ![256, n]⟩ (extractStridedSlice ⟨3, ![256, 1, n]⟩ ![0, k, o2] X hs) hcast⟩)
    (hss : xs.map (·.1) = rowShapes) (hn : k + n = 26) (ho2 : o2 = k + 1)
    (hlo : Cert.Tri.off k ≤ p.val) (hhi : p.val < Cert.Tri.off (k + 1)) (hc : c.val = k + 1 + (p.val - Cert.Tri.off k)) :
    concatenate S256x351 1 xs h (ix2 b p) = X (ix3 b r c) := by
  have hk : k < 26 := by
    have hl := (List.getElem?_eq_some_iff.mp hxk).1
    have hlen : xs.length = 26 := by rw [← List.length_map (f := fun x => x.1), hss]; rfl
    omega
  have hpre : (((xs.take k).map (·.1)).map fun s => if h : s.rank = S256x351.rank then s.size ((1 : Fin S256x351.rank).cast h.symm) else 0).sum
      = Cert.Tri.off k := by
    rw [List.map_take, hss]
    exact rowShapes_before ⟨k, by omega⟩
  have hsucc : Cert.Tri.off (k + 1) = Cert.Tri.off k + (26 - k) := Cert.Tri.off_succ ⟨k, hk⟩
  exact (concat_col xs h b p k n _ hxk (Cert.Tri.off k) hpre ⟨p.val - Cert.Tri.off k, by omega⟩
      (by show Cert.Tri.off k + (p.val - Cert.Tri.off k) = p.val; omega)).trans
    (rowSlice_apply k o2 X hs hcast b _ r c hr (by show c.val = o2 + (p.val - Cert.Tri.off k); omega))

/-- The stored value at column p, when p lies in the span of row i of the triangle: entry (i, i + 1 + (p - off i)) of the
    product. Row by row, so that the piece and its extent 26 - i are literals. -/
theorem stored_col (x0 : Vec Ideal S256x128 .f32) (x1 : Vec Ideal S256x26x128 .f32) (b : Fin 256) (p : Fin 351)
    (i : Nat) (r c : Fin 27) (hi : i < 26) (hlo : Cert.Tri.off i ≤ p.val) (hhi : p.val < Cert.Tri.off (i + 1))
    (hr : r.val = i) (hc : c.val = i + 1 + (p.val - Cert.Tri.off i)) :
    k0_pay1 (F := Ideal) (k0_pay2 x0 x1) (k0_pay3 x0 x1) (k0_pay4 x0 x1) (k0_pay5 x0 x1) (k0_pay6 x0 x1) (k0_pay7 x0 x1)
        (k0_pay8 x0 x1) (k0_pay9 x0 x1) (k0_pay10 x0 x1) (k0_pay11 x0 x1) (k0_pay12 x0 x1) (k0_pay13 x0 x1) (k0_pay14 x0 x1)
        (k0_pay15 x0 x1) (k0_pay16 x0 x1) (k0_pay17 x0 x1) (k0_pay18 x0 x1) (k0_pay19 x0 x1) (k0_pay20 x0 x1) (k0_pay21 x0 x1)
        (k0_pay22 x0 x1) (k0_pay23 x0 x1) (k0_pay24 x0 x1) (k0_pay25 x0 x1) (k0_pay26 x0 x1) (ix2 b p)
      = k0_pay2 (F := Ideal) x0 x1 (ix3 b r c) := by
  unfold k0_pay1 k0_pay3 k0_pay4 k0_pay5 k0_pay6 k0_pay7 k0_pay8 k0_pay9 k0_pay10 k0_pay11 k0_pay12 k0_pay13 k0_pay14 k0_pay15
    k0_pay16 k0_pay17 k0_pay18 k0_pay19 k0_pay20 k0_pay21 k0_pay22 k0_pay23 k0_pay24 k0_pay25 k0_pay26
  show concatenate S256x351 1 _ _ (ix2 b p) = _
  interval_cases i <;>
    (refine concat_rows_col (k0_pay2 (F := Ideal) x0 x1) _ _ b p _ ?_ ?_ r c hr ?_ ?_ ?_ ?_ ?_ ?_ hlo hhi hc
     pick_goal 5
     · rfl
     all_goals rfl)

/-! ## The block -/

theorem blockOff2_eq_zero : (![0, 0] : Fin 2 → Nat) = fun _ => 0 := funext fun a => by fin_cases a <;> rfl
theorem blockOff3_eq_zero : (![0, 0, 0] : Fin 3 → Nat) = fun _ => 0 := funext fun a => by fin_cases a <;> rfl

/-- What the body leaves in the output block, entry by entry. -/
theorem out0_2_apply (x0 : Vec Ideal S256x128 .f32) (x1 : Vec Ideal S256x26x128 .f32) (b : Fin 256) (p : Fin 351) :
    out0_2 (F := Ideal) x0 x1 (ix2 b p)
      = ∑ k : Fin 128, featB x0 x1 b (Cert.Tri.row p) k * featB x0 x1 b (Cert.Tri.col p) k := by
  unfold out0_2
  rw [View.canon_unit_zero blockOff2_eq_zero]
  simp only [View.ld_unit_zero (S := S256x128) blockOff2_eq_zero, View.ld_unit_zero (S := S256x26x128) blockOff3_eq_zero]
  rw [← gram_apply]
  exact stored_col x0 x1 b p (Cert.Tri.rowOf p.val) (Cert.Tri.row p) (Cert.Tri.col p) (Cert.Tri.rowOf_lt p)
    (Cert.Tri.off_rowOf_le p) (Cert.Tri.lt_off_rowOf_succ p) rfl rfl

end Cert.KernelIdeal.Val

end
-- ==== Proof.KernelValue.lean ====
/-
  The kernel's result: every weakly fair execution ends with the output array holding, at (b, p), the inner product of
  the features of pair p in batch row b.

  Grid point t works on batch rows 256 t … 256 t + 255: its blocks of the two inputs are those rows of the argument
  arrays, so the features of row b of the block are the features of batch row 256 t + b, and what the point writes back
  is those rows of the whole-array result. The 256 blocks cover the array (row r is in block r / 256).
-/
import proofs.«147877_j790273983046_1_alg».proof.Proof.Gen.KernelIdeal.Value
import proofs.«147877_j790273983046_1_alg».proof.Proof.Pairs
import proofs.«147877_j790273983046_1_alg».proof.Proof.KernelBlock

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/-! ## A block whose rows are rows of the arrays has the arrays' features and inner products -/

/-- If row b of the blocks is row `r b` of the arrays, entry by entry, then the features of row b of the blocks are the
    features of batch row `r b`. -/
theorem featB_eq_feat (x0 : Vec Ideal S256x128 .f32) (x1 : Vec Ideal S256x26x128 .f32)
    (A0 : FVec Ideal S65536x128 .f32) (A1 : FVec Ideal S65536x26x128 .f32) (r : Fin 256 → Fin 65536)
    (h0 : ∀ (b : Fin 256) (k : Fin 128), x0 (ix2 b k) = A0 (ix2 (r b) k))
    (h1 : ∀ (b : Fin 256) (g : Fin 26) (k : Fin 128), x1 (ix3 b g k) = A1 (ix3 (r b) g k))
    (b : Fin 256) (f : Fin 27) (k : Fin 128) :
    featB x0 x1 b f k = Cert.Tri.feat A0 A1 (r b) f k := by
  unfold featB Cert.Tri.feat
  split_ifs with h
  · exact h0 b k
  · exact h1 b _ k

/-- So the body's result at (b, p) is the whole-array result at (r b, p). -/
theorem block_entry (x0 : Vec Ideal S256x128 .f32) (x1 : Vec Ideal S256x26x128 .f32)
    (A0 : FVec Ideal S65536x128 .f32) (A1 : FVec Ideal S65536x26x128 .f32) (r : Fin 256 → Fin 65536)
    (h0 : ∀ (b : Fin 256) (k : Fin 128), x0 (ix2 b k) = A0 (ix2 (r b) k))
    (h1 : ∀ (b : Fin 256) (g : Fin 26) (k : Fin 128), x1 (ix3 b g k) = A1 (ix3 (r b) g k))
    (b : Fin 256) (p : Fin 351) :
    out0_2 (F := Ideal) x0 x1 (ix2 b p) = Cert.Tri.G A0 A1 (ix2 (r b) p) := by
  rw [out0_2_apply, Cert.Tri.G_apply]
  unfold Cert.Tri.gram
  exact Finset.sum_congr rfl fun k _ => by
    rw [featB_eq_feat x0 x1 A0 A1 r h0 h1 b (Cert.Tri.row p) k, featB_eq_feat x0 x1 A0 A1 r h0 h1 b (Cert.Tri.col p) k]

/-! ## Where point t's blocks sit in the arrays -/

variable (m : (ℓ : Loc nD τ sig) → Buf (Elt Ideal) ℓ) (ρ : Dev nD → PrngReg)

/-- The printed index maps, decided over the grid: on the batch axis every window's block index is the point's number,
    on the other axes it is 0. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The batch row that row b of point t's blocks is: 256 t + b. -/
def rowAt (t : Fin cfg0.N) (b : Fin 256) : Fin 65536 :=
  ⟨256 * t.val + b.val, by have := t.isLt; have hN : cfg0.N = 256 := N_0; have := b.isLt; omega⟩

/-- Entry (b, k) of the dense input's block at point t sits at (256 t + b, k) of the array, -/
theorem emb_dense (t : Fin cfg0.N) (b : Fin 256) (k : Fin 128) :
    ((cfg0.win 0).blk t).view.emb (ix2 b k) = (ix2 (rowAt t b) k : S65536x128.Idx) := by
  obtain ⟨e0, e1, -⟩ := idx_facts t
  funext a; apply Fin.ext
  match a with
  | ⟨0, _⟩ => show win0_0.index t (0 : Fin 2) * 256 + 1 * b.val = 256 * t.val + b.val; omega
  | ⟨1, _⟩ => show win0_0.index t (1 : Fin 2) * 128 + 1 * k.val = k.val; omega

/-- entry (b, g, k) of the sparse input's block at (256 t + b, g, k), -/
theorem emb_sparse (t : Fin cfg0.N) (b : Fin 256) (g : Fin 26) (k : Fin 128) :
    ((cfg0.win 1).blk t).view.emb (ix3 b g k) = (ix3 (rowAt t b) g k : S65536x26x128.Idx) := by
  obtain ⟨-, -, e0, e1, e2, -⟩ := idx_facts t
  funext a; apply Fin.ext
  match a with
  | ⟨0, _⟩ => show win0_1.index t (0 : Fin 3) * 256 + 1 * b.val = 256 * t.val + b.val; omega
  | ⟨1, _⟩ => show win0_1.index t (1 : Fin 3) * 26 + 1 * g.val = g.val; omega
  | ⟨2, _⟩ => show win0_1.index t (2 : Fin 3) * 128 + 1 * k.val = k.val; omega

/-- and entry (b, p) of the output's block at (256 t + b, p). -/
theorem emb_out (t : Fin cfg0.N) (b : Fin 256) (p : Fin 351) :
    ((cfg0.win 2).blk t).view.emb (ix2 b p) = (ix2 (rowAt t b) p : S65536x351.Idx) := by
  obtain ⟨-, -, -, -, -, e0, e1⟩ := idx_facts t
  funext a; apply Fin.ext
  match a with
  | ⟨0, _⟩ => show win0_2.index t (0 : Fin 2) * 256 + 1 * b.val = 256 * t.val + b.val; omega
  | ⟨1, _⟩ => show win0_2.index t (1 : Fin 2) * 351 + 1 * p.val = p.val; omega

/-- The dense input's block at point t is rows 256 t … 256 t + 255 of the argument, -/
theorem iblk_dense (c : Dev nD) (t : Fin cfg0.N) (b : Fin 256) (k : Fin 128) :
    (iblk m c 0 t : Vec Ideal S256x128 .f32) (ix2 b k)
      = (V m c main_arg0 : FVec Ideal S65536x128 .f32) (ix2 (rowAt t b) k) := by
  show V m c main_arg0 (((cfg0.win 0).blk t).view.emb (ix2 b k)) = V m c main_arg0 (ix2 (rowAt t b) k)
  exact congrArg (V m c main_arg0) (emb_dense t b k)

/-- and the sparse input's block the same rows of its argument. -/
theorem iblk_sparse (c : Dev nD) (t : Fin cfg0.N) (b : Fin 256) (g : Fin 26) (k : Fin 128) :
    (iblk m c 1 t : Vec Ideal S256x26x128 .f32) (ix3 b g k)
      = (V m c main_arg1 : FVec Ideal S65536x26x128 .f32) (ix3 (rowAt t b) g k) := by
  show V m c main_arg1 (((cfg0.win 1).blk t).view.emb (ix3 b g k)) = V m c main_arg1 (ix3 (rowAt t b) g k)
  exact congrArg (V m c main_arg1) (emb_sparse t b g k)

/-! ## From blocks to the array -/

/-- WHAT POINT t WRITES BACK is block t of the whole-array result of the argument arrays. -/
theorem flushed_eq (c : Dev nD) (t : Fin cfg0.N) :
    (dats m 0 c).flushed 2 t
      = ((cfg0.win 2).blk t).view.read (Elt Ideal) (Cert.Tri.G (V m c main_arg0) (V m c main_arg1)) := by
  rw [Value.flushed2 m c t]
  funext j
  obtain ⟨b, p, rfl⟩ : ∃ (b : Fin 256) (p : Fin 351), j = ix2 b p := ⟨j 0, j 1, eq_ix2 j⟩
  show out0_2 (F := Ideal) (iblk m c 0 t) (iblk m c 1 t) (ix2 b p)
    = Cert.Tri.G (V m c main_arg0) (V m c main_arg1) (((cfg0.win 2).blk t).view.emb (ix2 b p))
  rw [emb_out t b p]
  exact block_entry (iblk m c 0 t) (iblk m c 1 t) (V m c main_arg0) (V m c main_arg1) (rowAt t)
    (iblk_dense m c t) (iblk_sparse m c t) b p

/-- An index of the array is in point t's block iff each coordinate is in the block's range on its axis. -/
theorem mem_blk (t : Fin cfg0.N) (i : S65536x351.Idx) :
    i ∈ ((cfg0.win 2).blk t).view.set ↔ ∀ a : Fin 2, win0_2.index t a * S256x351.size a ≤ (i a).val
      ∧ (i a).val < win0_2.index t a * S256x351.size a + S256x351.size a := by
  show i ∈ ((View.whole main_v0).slice (win0_2.rect t)).set ↔ _
  rw [View.set_slice_whole, Rect.mem_set_unit]
  exact Iff.rfl

/-- Every index of the array is in some point's block: batch row r is in the block of point r / 256. -/
theorem cover (i : S65536x351.Idx) :
    ∃ t : Fin cfg0.N, (cfg0.win 2).flush t = true ∧ i ∈ ((cfg0.win 2).blk t).view.set := by
  have hi0 : (i 0).val < 65536 := (i 0).isLt
  have hi1 : (i 1).val < 351 := (i 1).isLt
  have hN : cfg0.N = 256 := N_0
  obtain ⟨t, ht⟩ : ∃ t : Fin cfg0.N, t.val = (i 0).val / 256 := ⟨⟨(i 0).val / 256, by omega⟩, rfl⟩
  obtain ⟨-, -, -, -, -, e0, e1⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 351 ≤ (i 1).val ∧ (i 1).val < win0_2.index t (1 : Fin 2) * 351 + 351
    omega

/-- THE ARRAY after the run is the whole-array result of the arguments as launched. -/
theorem final (c : Dev nD) : (dats m 0 c).arrAt 2 cfg0.N
    = Cert.Tri.G (m ((c : Thread nD τ).loc main_arg0)) (m ((c : Thread nD τ).loc main_arg1)) :=
  (dats m 0 c).arrAt_eq_of_cover 2 (Cert.Tri.G (V m c main_arg0) (V m c main_arg1)) (fun t _ => flushed_eq m c t) cover

/-! ## The run, read -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
          = Cert.Tri.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Val

end
-- ==== Proof.RefOps.lean ====
/- The reference program's 138 host operations, in order: @main's own, and each module-local function's at its call site
   over that call's buffer record; and that every operation's buffers are TensorCore buffers. -/
import proofs.«147877_j790273983046_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev ops : List (HloOp τ sig (Elt F)) :=
  [ unary main_arg0 main_v0 (broadcastInDim S65536x1x128 ![0, 2] bcast_S65536x128_S65536x1x128_0_2 : (⟨S65536x128, .f32⟩ : BufTy).Contents (Elt F) → (⟨S65536x1x128, .f32⟩ : BufTy).Contents (Elt F)),
    binary main_v0 main_arg1 main_v1 ((fun a b => concatenate S65536x27x128 1 [⟨S65536x1x128, a⟩, ⟨S65536x26x128, b⟩] concatenates_S65536x1x128_S65536x26x128_S65536x27x128_d1) : (⟨S65536x1x128, .f32⟩ : BufTy).Contents (Elt F) → (⟨S65536x26x128, .f32⟩ : BufTy).Contents (Elt F) → (⟨S65536x27x128, .f32⟩ : BufTy).Contents (Elt F)),
    binary main_v1 main_v1 main_v2 ((fun l r => Host.dotGeneral dot_S65536x27x128_S65536x27x128_S65536x27x27_2_2_1_1_0_0 none l r) : (⟨S65536x27x128, .f32⟩ : BufTy).Contents (Elt F) → (⟨S65536x27x128, .f32⟩ : BufTy).Contents (Elt F) → (⟨S65536x27x27, .f32⟩ : BufTy).Contents (Elt F)),
    nullary main_cst (constant S_ .f32 0x3F800000#32),
    unary main_cst main_v3 (broadcastInDim S27x27 ![] bcast_S_S27x27 : (⟨S_, .f32⟩ : BufTy).Contents (Elt F) → (⟨S27x27, .f32⟩ : BufTy).Contents (Elt F)),
    TRef.nullary main_call0.v0 (iotaInDim S27x27 32 0),
    TRef.nullary main_call0.c (constantI S_ 32 0#32),
    TRef.unary main_call0.c main_call0.v1 (broadcastInDim S27x27 ![] bcast_S_S27x27),
    TRef.binary main_call0.v0 main_call0.v1 main_call0.v2 addi,
    TRef.nullary main_call0.v3 (iotaInDim S27x27 32 1),
    TRef.binary main_call0.v2 main_call0.v3 main_call0.v4 (cmpi .sge),
    TRef.nullary main_call0.cst (constant S_ .f32 0x00000000#32),
    TRef.unary main_call0.cst main_call0.v5 (broadcastInDim S27x27 ![] bcast_S_S27x27),
    TRef.ternary main_call0.v4 main_call0.v5 (.of main_v3 : TRef sig ⟨S27x27, .f32⟩) main_call0.v6 select,
    nullary main_cst_0 (constant S_ .f32 0x00000000#32),
    unary main_cst_0 main_v5 (broadcastInDim S27x27 ![] bcast_S_S27x27 : (⟨S_, .f32⟩ : BufTy).Contents (Elt F) → (⟨S27x27, .f32⟩ : BufTy).Contents (Elt F)),
    binary main_v4 main_v5 main_v6 (cmpf .une : (⟨S27x27, .f32⟩ : BufTy).Contents (Elt F) → (⟨S27x27, .f32⟩ : BufTy).Contents (Elt F) → (⟨S27x27, .i1⟩ : BufTy).Contents (Elt F)),
    TRef.reshape (.of main_v6 : TRef sig ⟨S27x27, .i1⟩) main_call1.v0 rfl shapeCasts_S27x27_S729,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![729] ![1] ![728] ![0] x v reduceWindows_S729_S729_w729s1p728_0 h_S_),
    nullary main_c (constantI S_ 32 0#32),
    unary main_c main_v8 (broadcastInDim S351 ![] bcast_S_S351 : (⟨S_, .i32⟩ : BufTy).Contents (Elt F) → (⟨S351, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S729 ![] bcast_S_S729),
    TRef.binary main_call2.v1 (.of main_v7 : TRef sig ⟨S729, .i32⟩) main_call2.v2 maxsi,
    nullary main_c_2 (constantI S_ 32 0#32),
    unary main_c_2 main_v10 (broadcastInDim S729 ![] bcast_S_S729 : (⟨S_, .i32⟩ : BufTy).Contents (Elt F) → (⟨S729, .i32⟩ : BufTy).Contents (Elt F)),
    binary main_v9 main_v10 main_v11 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v12 (broadcastInDim S729 ![] bcast_S_S729 : (⟨S_, .i32⟩ : BufTy).Contents (Elt F) → (⟨S729, .i32⟩ : BufTy).Contents (Elt F)),
    binary main_v9 main_v12 main_v13 (addi : (⟨S729, .i32⟩ : BufTy).Contents (Elt F) → (⟨S729, .i32⟩ : BufTy).Contents (Elt F) → (⟨S729, .i32⟩ : BufTy).Contents (Elt F)),
    ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v14 main_v15 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v16 (broadcastInDim S729 ![] bcast_S_S729 : (⟨S_, .i32⟩ : BufTy).Contents (Elt F) → (⟨S729, .i32⟩ : BufTy).Contents (Elt F)),
    ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    TRef.nullary main_call3.call0.c (constantI S_ 32 0#32),
    TRef.unary main_call3.call0.c main_call3.call0.v0 (broadcastInDim S_ ![] bcast_S_S_),
    TRef.binary (.of main_v17 : TRef sig ⟨S351, .i32⟩) main_call3.call0.v0 main_call3.call0.v1 (fun x v => Host.reduceWindow IntOp.addi ![351] ![1] ![350] ![0] x v reduceWindows_S351_S351_w351s1p350_0 h_S_),
    nullary main_c_5 (constantI S_ 32 27#32),
    TRef.unary (.of main_c_5 : TRef sig ⟨S_, .i32⟩) main_call4.v0 (broadcastInDim S351 ![] bcast_S_S351),
    TRef.binary (.of main_v18 : TRef sig ⟨S351, .i32⟩) main_call4.v0 main_call4.v1 Host.divsi,
    TRef.unary (.of main_v18 : TRef sig ⟨S351, .i32⟩) main_call4.v2 signi,
    TRef.unary (.of main_c_5 : TRef sig ⟨S_, .i32⟩) main_call4.v3 signi,
    TRef.unary main_call4.v3 main_call4.v4 (broadcastInDim S351 ![] bcast_S_S351),
    TRef.binary main_call4.v2 main_call4.v4 main_call4.v5 (cmpi .ne),
    TRef.unary (.of main_c_5 : TRef sig ⟨S_, .i32⟩) main_call4.v6 (broadcastInDim S351 ![] bcast_S_S351),
    TRef.binary (.of main_v18 : TRef sig ⟨S351, .i32⟩) main_call4.v6 main_call4.v7 Host.remsi,
    TRef.nullary main_call4.c (constantI S_ 32 0#32),
    TRef.unary main_call4.c main_call4.v8 (broadcastInDim S351 ![] bcast_S_S351),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S351 ![] bcast_S_S351),
    TRef.binary main_call4.v1 main_call4.v11 main_call4.v12 subi,
    TRef.ternary main_call4.v10 main_call4.v12 main_call4.v1 main_call4.call0.v0 select,
    nullary main_c_6 (constantI S_ 32 27#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S351 ![] bcast_S_S351),
    TRef.binary (.of main_v19 : TRef sig ⟨S351, .i32⟩) main_call5.v3 main_call5.v4 Host.remsi,
    TRef.nullary main_call5.c_1 (constantI S_ 32 0#32),
    TRef.unary main_call5.c_1 main_call5.v5 (broadcastInDim S351 ![] bcast_S_S351),
    TRef.binary main_call5.v4 main_call5.v5 main_call5.v6 (cmpi .ne),
    TRef.nullary main_call5.c_2 (constantI S_ 32 0#32),
    TRef.unary main_call5.c_2 main_call5.v7 (broadcastInDim S351 ![] bcast_S_S351),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S351 ![] bcast_S_S351),
    TRef.binary main_call5.v8 main_call5.v10 main_call5.v11 (cmpi .ne),
    TRef.binary main_call5.v11 main_call5.v6 main_call5.v12 andi,
    TRef.unary main_call5.call0.v0 main_call5.v13 (broadcastInDim S351 ![] bcast_S_S351),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S351 ![] bcast_S_S351),
    TRef.binary (.of main_v18 : TRef sig ⟨S351, .i32⟩) main_call6.v0 main_call6.v1 Host.divsi,
    TRef.unary (.of main_v18 : TRef sig ⟨S351, .i32⟩) main_call6.v2 signi,
    TRef.unary (.of main_c_7 : TRef sig ⟨S_, .i32⟩) main_call6.v3 signi,
    TRef.unary main_call6.v3 main_call6.v4 (broadcastInDim S351 ![] bcast_S_S351),
    TRef.binary main_call6.v2 main_call6.v4 main_call6.v5 (cmpi .ne),
    TRef.unary (.of main_c_7 : TRef sig ⟨S_, .i32⟩) main_call6.v6 (broadcastInDim S351 ![] bcast_S_S351),
    TRef.binary (.of main_v18 : TRef sig ⟨S351, .i32⟩) main_call6.v6 main_call6.v7 Host.remsi,
    TRef.nullary main_call6.c (constantI S_ 32 0#32),
    TRef.unary main_call6.c main_call6.v8 (broadcastInDim S351 ![] bcast_S_S351),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S351 ![] bcast_S_S351),
    TRef.binary main_call6.v1 main_call6.v11 main_call6.v12 subi,
    TRef.ternary main_call6.v10 main_call6.v12 main_call6.v1 main_call6.call0.v0 select,
    nullary main_c_8 (constantI S_ 32 27#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S351 ![] bcast_S_S351),
    TRef.binary (.of main_v21 : TRef sig ⟨S351, .i32⟩) main_call7.v3 main_call7.v4 Host.remsi,
    TRef.nullary main_call7.c_1 (constantI S_ 32 0#32),
    TRef.unary main_call7.c_1 main_call7.v5 (broadcastInDim S351 ![] bcast_S_S351),
    TRef.binary main_call7.v4 main_call7.v5 main_call7.v6 (cmpi .ne),
    TRef.nullary main_call7.c_2 (constantI S_ 32 0#32),
    TRef.unary main_call7.c_2 main_call7.v7 (broadcastInDim S351 ![] bcast_S_S351),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S351 ![] bcast_S_S351),
    TRef.binary main_call7.v8 main_call7.v10 main_call7.v11 (cmpi .ne),
    TRef.binary main_call7.v11 main_call7.v6 main_call7.v12 andi,
    TRef.unary main_call7.call0.v0 main_call7.v13 (broadcastInDim S351 ![] bcast_S_S351),
    TRef.binary main_call7.v4 main_call7.v13 main_call7.v14 addi,
    TRef.ternary main_call7.v12 main_call7.v14 main_call7.v4 main_call7.v15 select,
    nullary main_c_9 (constantI S_ 32 0#32),
    unary main_c_9 main_v23 (broadcastInDim S351 ![] bcast_S_S351 : (⟨S_, .i32⟩ : BufTy).Contents (Elt F) → (⟨S351, .i32⟩ : BufTy).Contents (Elt F)),
    binary main_v20 main_v23 main_v24 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v25 (broadcastInDim S351 ![] bcast_S_S351 : (⟨S_, .i32⟩ : BufTy).Contents (Elt F) → (⟨S351, .i32⟩ : BufTy).Contents (Elt F)),
    binary main_v20 main_v25 main_v26 (addi : (⟨S351, .i32⟩ : BufTy).Contents (Elt F) → (⟨S351, .i32⟩ : BufTy).Contents (Elt F) → (⟨S351, .i32⟩ : BufTy).Contents (Elt F)),
    ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v28 (broadcastInDim S351 ![] bcast_S_S351 : (⟨S_, .i32⟩ : BufTy).Contents (Elt F) → (⟨S351, .i32⟩ : BufTy).Contents (Elt F)),
    binary main_v22 main_v28 main_v29 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v30 (broadcastInDim S351 ![] bcast_S_S351 : (⟨S_, .i32⟩ : BufTy).Contents (Elt F) → (⟨S351, .i32⟩ : BufTy).Contents (Elt F)),
    binary main_v22 main_v30 main_v31 (addi : (⟨S351, .i32⟩ : BufTy).Contents (Elt F) → (⟨S351, .i32⟩ : BufTy).Contents (Elt F) → (⟨S351, .i32⟩ : BufTy).Contents (Elt F)),
    ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v27 main_v33 (broadcastInDim S351x1 ![0] bcast_S351_S351x1_0 : (⟨S351, .i32⟩ : BufTy).Contents (Elt F) → (⟨S351x1, .i32⟩ : BufTy).Contents (Elt F)),
    unary main_v32 main_v34 (broadcastInDim S351x1 ![0] bcast_S351_S351x1_0 : (⟨S351, .i32⟩ : BufTy).Contents (Elt F) → (⟨S351x1, .i32⟩ : BufTy).Contents (Elt F)),
    binary main_v33 main_v34 main_v35 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v2 main_v35 main_v36 ((fun x i => Host.gather gather_S65536x27x27_S351x2_S65536x351_0_12_n_n_12_1_6553611 x i) : (⟨S65536x27x27, .f32⟩ : BufTy).Contents (Elt F) → (⟨S351x2, .i32⟩ : BufTy).Contents (Elt F) → (⟨S65536x351, .f32⟩ : BufTy).Contents (Elt F)) ]

/-- The first operation alone: the dense rows laid as feature 0. -/
abbrev opsHead : List (HloOp τ sig (Elt F)) :=
  [ unary main_arg0 main_v0 (broadcastInDim S65536x1x128 ![0, 2] bcast_S65536x128_S65536x1x128_0_2 : (⟨S65536x128, .f32⟩ : BufTy).Contents (Elt F) → (⟨S65536x1x128, .f32⟩ : BufTy).Contents (Elt F)) ]

/-- Everything between: the features, their Gram matrix, and the pair table's two columns. -/
abbrev opsMid : List (HloOp τ sig (Elt F)) :=
  [ binary main_v0 main_arg1 main_v1 ((fun a b => concatenate S65536x27x128 1 [⟨S65536x1x128, a⟩, ⟨S65536x26x128, b⟩] concatenates_S65536x1x128_S65536x26x128_S65536x27x128_d1) : (⟨S65536x1x128, .f32⟩ : BufTy).Contents (Elt F) → (⟨S65536x26x128, .f32⟩ : BufTy).Contents (Elt F) → (⟨S65536x27x128, .f32⟩ : BufTy).Contents (Elt F)),
    binary main_v1 main_v1 main_v2 ((fun l r => Host.dotGeneral dot_S65536x27x128_S65536x27x128_S65536x27x27_2_2_1_1_0_0 none l r) : (⟨S65536x27x128, .f32⟩ : BufTy).Contents (Elt F) → (⟨S65536x27x128, .f32⟩ : BufTy).Contents (Elt F) → (⟨S65536x27x27, .f32⟩ : BufTy).Contents (Elt F)),
    nullary main_cst (constant S_ .f32 0x3F800000#32),
    unary main_cst main_v3 (broadcastInDim S27x27 ![] bcast_S_S27x27 : (⟨S_, .f32⟩ : BufTy).Contents (Elt F) → (⟨S27x27, .f32⟩ : BufTy).Contents (Elt F)),
    TRef.nullary main_call0.v0 (iotaInDim S27x27 32 0),
    TRef.nullary main_call0.c (constantI S_ 32 0#32),
    TRef.unary main_call0.c main_call0.v1 (broadcastInDim S27x27 ![] bcast_S_S27x27),
    TRef.binary main_call0.v0 main_call0.v1 main_call0.v2 addi,
    TRef.nullary main_call0.v3 (iotaInDim S27x27 32 1),
    TRef.binary main_call0.v2 main_call0.v3 main_call0.v4 (cmpi .sge),
    TRef.nullary main_call0.cst (constant S_ .f32 0x00000000#32),
    TRef.unary main_call0.cst main_call0.v5 (broadcastInDim S27x27 ![] bcast_S_S27x27),
    TRef.ternary main_call0.v4 main_call0.v5 (.of main_v3 : TRef sig ⟨S27x27, .f32⟩) main_call0.v6 select,
    nullary main_cst_0 (constant S_ .f32 0x00000000#32),
    unary main_cst_0 main_v5 (broadcastInDim S27x27 ![] bcast_S_S27x27 : (⟨S_, .f32⟩ : BufTy).Contents (Elt F) → (⟨S27x27, .f32⟩ : BufTy).Contents (Elt F)),
    binary main_v4 main_v5 main_v6 (cmpf .une : (⟨S27x27, .f32⟩ : BufTy).Contents (Elt F) → (⟨S27x27, .f32⟩ : BufTy).Contents (Elt F) → (⟨S27x27, .i1⟩ : BufTy).Contents (Elt F)),
    TRef.reshape (.of main_v6 : TRef sig ⟨S27x27, .i1⟩) main_call1.v0 rfl shapeCasts_S27x27_S729,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![729] ![1] ![728] ![0] x v reduceWindows_S729_S729_w729s1p728_0 h_S_),
    nullary main_c (constantI S_ 32 0#32),
    unary main_c main_v8 (broadcastInDim S351 ![] bcast_S_S351 : (⟨S_, .i32⟩ : BufTy).Contents (Elt F) → (⟨S351, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S729 ![] bcast_S_S729),
    TRef.binary main_call2.v1 (.of main_v7 : TRef sig ⟨S729, .i32⟩) main_call2.v2 maxsi,
    nullary main_c_2 (constantI S_ 32 0#32),
    unary main_c_2 main_v10 (broadcastInDim S729 ![] bcast_S_S729 : (⟨S_, .i32⟩ : BufTy).Contents (Elt F) → (⟨S729, .i32⟩ : BufTy).Contents (Elt F)),
    binary main_v9 main_v10 main_v11 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v12 (broadcastInDim S729 ![] bcast_S_S729 : (⟨S_, .i32⟩ : BufTy).Contents (Elt F) → (⟨S729, .i32⟩ : BufTy).Contents (Elt F)),
    binary main_v9 main_v12 main_v13 (addi : (⟨S729, .i32⟩ : BufTy).Contents (Elt F) → (⟨S729, .i32⟩ : BufTy).Contents (Elt F) → (⟨S729, .i32⟩ : BufTy).Contents (Elt F)),
    ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v14 main_v15 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v16 (broadcastInDim S729 ![] bcast_S_S729 : (⟨S_, .i32⟩ : BufTy).Contents (Elt F) → (⟨S729, .i32⟩ : BufTy).Contents (Elt F)),
    ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    TRef.nullary main_call3.call0.c (constantI S_ 32 0#32),
    TRef.unary main_call3.call0.c main_call3.call0.v0 (broadcastInDim S_ ![] bcast_S_S_),
    TRef.binary (.of main_v17 : TRef sig ⟨S351, .i32⟩) main_call3.call0.v0 main_call3.call0.v1 (fun x v => Host.reduceWindow IntOp.addi ![351] ![1] ![350] ![0] x v reduceWindows_S351_S351_w351s1p350_0 h_S_),
    nullary main_c_5 (constantI S_ 32 27#32),
    TRef.unary (.of main_c_5 : TRef sig ⟨S_, .i32⟩) main_call4.v0 (broadcastInDim S351 ![] bcast_S_S351),
    TRef.binary (.of main_v18 : TRef sig ⟨S351, .i32⟩) main_call4.v0 main_call4.v1 Host.divsi,
    TRef.unary (.of main_v18 : TRef sig ⟨S351, .i32⟩) main_call4.v2 signi,
    TRef.unary (.of main_c_5 : TRef sig ⟨S_, .i32⟩) main_call4.v3 signi,
    TRef.unary main_call4.v3 main_call4.v4 (broadcastInDim S351 ![] bcast_S_S351),
    TRef.binary main_call4.v2 main_call4.v4 main_call4.v5 (cmpi .ne),
    TRef.unary (.of main_c_5 : TRef sig ⟨S_, .i32⟩) main_call4.v6 (broadcastInDim S351 ![] bcast_S_S351),
    TRef.binary (.of main_v18 : TRef sig ⟨S351, .i32⟩) main_call4.v6 main_call4.v7 Host.remsi,
    TRef.nullary main_call4.c (constantI S_ 32 0#32),
    TRef.unary main_call4.c main_call4.v8 (broadcastInDim S351 ![] bcast_S_S351),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S351 ![] bcast_S_S351),
    TRef.binary main_call4.v1 main_call4.v11 main_call4.v12 subi,
    TRef.ternary main_call4.v10 main_call4.v12 main_call4.v1 main_call4.call0.v0 select,
    nullary main_c_6 (constantI S_ 32 27#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S351 ![] bcast_S_S351),
    TRef.binary (.of main_v19 : TRef sig ⟨S351, .i32⟩) main_call5.v3 main_call5.v4 Host.remsi,
    TRef.nullary main_call5.c_1 (constantI S_ 32 0#32),
    TRef.unary main_call5.c_1 main_call5.v5 (broadcastInDim S351 ![] bcast_S_S351),
    TRef.binary main_call5.v4 main_call5.v5 main_call5.v6 (cmpi .ne),
    TRef.nullary main_call5.c_2 (constantI S_ 32 0#32),
    TRef.unary main_call5.c_2 main_call5.v7 (broadcastInDim S351 ![] bcast_S_S351),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S351 ![] bcast_S_S351),
    TRef.binary main_call5.v8 main_call5.v10 main_call5.v11 (cmpi .ne),
    TRef.binary main_call5.v11 main_call5.v6 main_call5.v12 andi,
    TRef.unary main_call5.call0.v0 main_call5.v13 (broadcastInDim S351 ![] bcast_S_S351),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S351 ![] bcast_S_S351),
    TRef.binary (.of main_v18 : TRef sig ⟨S351, .i32⟩) main_call6.v0 main_call6.v1 Host.divsi,
    TRef.unary (.of main_v18 : TRef sig ⟨S351, .i32⟩) main_call6.v2 signi,
    TRef.unary (.of main_c_7 : TRef sig ⟨S_, .i32⟩) main_call6.v3 signi,
    TRef.unary main_call6.v3 main_call6.v4 (broadcastInDim S351 ![] bcast_S_S351),
    TRef.binary main_call6.v2 main_call6.v4 main_call6.v5 (cmpi .ne),
    TRef.unary (.of main_c_7 : TRef sig ⟨S_, .i32⟩) main_call6.v6 (broadcastInDim S351 ![] bcast_S_S351),
    TRef.binary (.of main_v18 : TRef sig ⟨S351, .i32⟩) main_call6.v6 main_call6.v7 Host.remsi,
    TRef.nullary main_call6.c (constantI S_ 32 0#32),
    TRef.unary main_call6.c main_call6.v8 (broadcastInDim S351 ![] bcast_S_S351),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S351 ![] bcast_S_S351),
    TRef.binary main_call6.v1 main_call6.v11 main_call6.v12 subi,
    TRef.ternary main_call6.v10 main_call6.v12 main_call6.v1 main_call6.call0.v0 select,
    nullary main_c_8 (constantI S_ 32 27#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S351 ![] bcast_S_S351),
    TRef.binary (.of main_v21 : TRef sig ⟨S351, .i32⟩) main_call7.v3 main_call7.v4 Host.remsi,
    TRef.nullary main_call7.c_1 (constantI S_ 32 0#32),
    TRef.unary main_call7.c_1 main_call7.v5 (broadcastInDim S351 ![] bcast_S_S351),
    TRef.binary main_call7.v4 main_call7.v5 main_call7.v6 (cmpi .ne),
    TRef.nullary main_call7.c_2 (constantI S_ 32 0#32),
    TRef.unary main_call7.c_2 main_call7.v7 (broadcastInDim S351 ![] bcast_S_S351),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S351 ![] bcast_S_S351),
    TRef.binary main_call7.v8 main_call7.v10 main_call7.v11 (cmpi .ne),
    TRef.binary main_call7.v11 main_call7.v6 main_call7.v12 andi,
    TRef.unary main_call7.call0.v0 main_call7.v13 (broadcastInDim S351 ![] bcast_S_S351),
    TRef.binary main_call7.v4 main_call7.v13 main_call7.v14 addi,
    TRef.ternary main_call7.v12 main_call7.v14 main_call7.v4 main_call7.v15 select,
    nullary main_c_9 (constantI S_ 32 0#32),
    unary main_c_9 main_v23 (broadcastInDim S351 ![] bcast_S_S351 : (⟨S_, .i32⟩ : BufTy).Contents (Elt F) → (⟨S351, .i32⟩ : BufTy).Contents (Elt F)),
    binary main_v20 main_v23 main_v24 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v25 (broadcastInDim S351 ![] bcast_S_S351 : (⟨S_, .i32⟩ : BufTy).Contents (Elt F) → (⟨S351, .i32⟩ : BufTy).Contents (Elt F)),
    binary main_v20 main_v25 main_v26 (addi : (⟨S351, .i32⟩ : BufTy).Contents (Elt F) → (⟨S351, .i32⟩ : BufTy).Contents (Elt F) → (⟨S351, .i32⟩ : BufTy).Contents (Elt F)),
    ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v28 (broadcastInDim S351 ![] bcast_S_S351 : (⟨S_, .i32⟩ : BufTy).Contents (Elt F) → (⟨S351, .i32⟩ : BufTy).Contents (Elt F)),
    binary main_v22 main_v28 main_v29 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v30 (broadcastInDim S351 ![] bcast_S_S351 : (⟨S_, .i32⟩ : BufTy).Contents (Elt F) → (⟨S351, .i32⟩ : BufTy).Contents (Elt F)),
    binary main_v22 main_v30 main_v31 (addi : (⟨S351, .i32⟩ : BufTy).Contents (Elt F) → (⟨S351, .i32⟩ : BufTy).Contents (Elt F) → (⟨S351, .i32⟩ : BufTy).Contents (Elt F)),
    ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v27 main_v33 (broadcastInDim S351x1 ![0] bcast_S351_S351x1_0 : (⟨S351, .i32⟩ : BufTy).Contents (Elt F) → (⟨S351x1, .i32⟩ : BufTy).Contents (Elt F)),
    unary main_v32 main_v34 (broadcastInDim S351x1 ![0] bcast_S351_S351x1_0 : (⟨S351, .i32⟩ : BufTy).Contents (Elt F) → (⟨S351x1, .i32⟩ : BufTy).Contents (Elt F)) ]

/-- The last two operations: the two columns side by side, and the gather. -/
abbrev opsTail : List (HloOp τ sig (Elt F)) :=
  [ binary main_v33 main_v34 main_v35 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v2 main_v35 main_v36 ((fun x i => Host.gather gather_S65536x27x27_S351x2_S65536x351_0_12_n_n_12_1_6553611 x i) : (⟨S65536x27x27, .f32⟩ : BufTy).Contents (Elt F) → (⟨S351x2, .i32⟩ : BufTy).Contents (Elt F) → (⟨S65536x351, .f32⟩ : BufTy).Contents (Elt F)) ]

/-- The line is those three stretches in order. -/
theorem ops_split : (ops : List (HloOp τ sig (Elt F))) = opsHead ++ (opsMid ++ opsTail) := rfl

theorem ops_sub : (ops : List (HloOp τ sig (Elt F))).Forall fun op => op.bufs ⊆ tcRefs τ sig :=
  ⟨unary_bufs_sub .., binary_bufs_sub .., binary_bufs_sub .., nullary_bufs_sub .., unary_bufs_sub .., nullary_bufs_sub ..,
    nullary_bufs_sub .., unary_bufs_sub .., binary_bufs_sub .., nullary_bufs_sub .., binary_bufs_sub .., nullary_bufs_sub ..,
    unary_bufs_sub .., ternary_bufs_sub .., nullary_bufs_sub .., unary_bufs_sub .., binary_bufs_sub .., reshape_bufs_sub ..,
    unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

end Cert.ReferenceIdeal.Ops

end
-- ==== Proof.RefRun.lean ====
/-
  The reference program runs as the straight line of its host operations: @main's own lines and, at each call of a
  module-local function, that function's lines over the call's buffers. Every weakly fair execution terminates with
  every buffer at the fold of the operations over the launch contents.
-/
import proofs.«147877_j790273983046_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main is the straight line: each function's definition unfolded at its call and sequencing re-associated. -/
theorem main_eq (c : Dev nD) : main (F := F) c = seq ops := by
  simp only [main, fn_triu.body, fn_cumsum_0.body, fn_cumsum.body, fn_clip.body, fn_cumsum_2.body, fn_cumsum_1.body,
    fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates with every TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Ops

end
-- ==== Proof.RefStages.lean ====
/-
  The reference's result as a composition of named stages.

  The reference builds its pair table at run time: a 27 × 27 matrix of ones with everything on or below the diagonal
  zeroed (`upper`), the test "entry ≠ 0" (`isPair`), read row by row as 729 words (`flatMask`); the running count of
  pairs up to each entry (`prefixCount`); how many entries have each running count (`counts`: one is added at the
  count's position, a count of 351 falling outside and being dropped); the running sum of those (`flatPos`): entry p is
  the number of entries whose running count is at most p, that is the position of pair number p in the matrix; its
  quotient and remainder by 27 (`rowIdx`, `colIdx`), through jnp's floor-division and remainder (which correct the
  truncated quotient and remainder for signs) and the wrap of negative indices; the two laid side by side
  (`pairIdx`). The result gathers, per batch row, the Gram matrix of the 27 features at those pairs.
-/
import proofs.«147877_j790273983046_1_alg».proof.Proof.Gen.ReferenceIdeal

noncomputable section

namespace Cert.ReferenceIdeal.Stages

open Cert.ReferenceIdeal Cert.ReferenceIdeal.Gen Idealize.ShloMosaic Idealize.SL.Sem

variable {F : FTy → Type} [FloatOps F]

/-- A word at every one of 351 positions. -/
def splat351 {α : Type} (d : S_.Idx → α) : S351.Idx → α := broadcastInDim S351 ![] bcast_S_S351 d
/-- A word at every one of 729 positions. -/
def splat729 {α : Type} (d : S_.Idx → α) : S729.Idx → α := broadcastInDim S729 ![] bcast_S_S729 d

/-- The matrix of ones, -/
def onesM : FVec F S27x27 .f32 := broadcastInDim S27x27 ![] bcast_S_S27x27 (constant S_ .f32 0x3F800000#32)
/-- of zeros, -/
def zerosM : FVec F S27x27 .f32 := broadcastInDim S27x27 ![] bcast_S_S27x27 (constant S_ .f32 0x00000000#32)
/-- and the ones strictly above the diagonal: zero where row + 0 ≥ column. -/
def upper : FVec F S27x27 .f32 :=
  select (cmpi .sge (addi (iotaInDim S27x27 32 0) (broadcastInDim S27x27 ![] bcast_S_S27x27 (constantI S_ 32 0#32)))
    (iotaInDim S27x27 32 1)) zerosM onesM
/-- Entry (r, c) is a pair: the entry of `upper` is not zero. -/
def isPair : IVec S27x27 1 := cmpf .une (upper (F := F)) zerosM
/-- The test read row by row, each bit widened to a word. -/
def flatMask : IVec S729 32 := extui 32 (shapeCast S729 (isPair (F := F)) shapeCasts_S27x27_S729) natLt_1_32
/-- The scalar zero the running sums start from. -/
def zero0 : IVec S_ 32 := broadcastInDim S_ ![] bcast_S_S_ (constantI S_ 32 0#32)
/-- The number of pairs among entries 0 … k. -/
def prefixCount : IVec S729 32 :=
  Host.reduceWindow IntOp.addi ![729] ![1] ![728] ![0] (flatMask (F := F)) zero0 reduceWindows_S729_S729_w729s1p728_0 h_S_
/-- Clipped below at zero, -/
def clipped : IVec S729 32 := maxsi (splat729 (constantI S_ 32 0#32)) (prefixCount (F := F))
/-- and a negative one wrapped by 351 (neither changes a count). -/
def wrapped : IVec S729 32 :=
  select (cmpi .slt (clipped (F := F)) (splat729 (constantI S_ 32 0#32))) (addi (clipped (F := F)) (splat729 (constantI S_ 32 351#32)))
    (clipped (F := F))
/-- How many entries have running count v, for v = 0 … 350. -/
def counts : IVec S351 32 :=
  Host.scatter scatter_S351_S729x1_S729_n_0_0_1 IntOp.addi (splat351 (constantI S_ 32 0#32))
    (broadcastInDim S729x1 ![0] bcast_S729_S729x1_0 (wrapped (F := F))) (splat729 (constantI S_ 32 1#32))
/-- How many entries have running count at most p: the position of pair number p. -/
def flatPos : IVec S351 32 :=
  Host.reduceWindow IntOp.addi ![351] ![1] ![350] ![0] (counts (F := F)) zero0 reduceWindows_S351_S351_w351s1p350_0 h_S_

/-- jnp's floor division by a scalar: the truncated quotient, one less where the signs differ and the division is inexact. -/
def floorDiv (x : IVec S351 32) (d : IVec S_ 32) : IVec S351 32 :=
  select (andi (cmpi .ne (signi x) (splat351 (signi d))) (cmpi .ne (Host.remsi x (splat351 d)) (splat351 (constantI S_ 32 0#32))))
    (subi (Host.divsi x (splat351 d)) (splat351 (constantI S_ 32 1#32))) (Host.divsi x (splat351 d))
/-- The divisor with zero replaced by one. -/
def nonzero (d : IVec S_ 32) : IVec S_ 32 := select (cmpi .eq d (constantI S_ 32 0#32)) (constantI S_ 32 1#32) d
/-- jnp's remainder by a scalar: the truncated remainder, the divisor added where it is nonzero and of the other sign. -/
def pyRem (x : IVec S351 32) (d : IVec S_ 32) : IVec S351 32 :=
  select (andi (cmpi .ne (cmpi .slt (Host.remsi x (splat351 (nonzero d))) (splat351 (constantI S_ 32 0#32)))
        (splat351 (cmpi .slt (nonzero d) (constantI S_ 32 0#32))))
      (cmpi .ne (Host.remsi x (splat351 (nonzero d))) (splat351 (constantI S_ 32 0#32))))
    (addi (Host.remsi x (splat351 (nonzero d))) (splat351 (nonzero d))) (Host.remsi x (splat351 (nonzero d)))
/-- A negative index wrapped by 27. -/
def wrap27 (x : IVec S351 32) : IVec S351 32 :=
  select (cmpi .slt x (splat351 (constantI S_ 32 0#32))) (addi x (splat351 (constantI S_ 32 27#32))) x

/-- The row of pair number p: (position / 27) mod 27. -/
def rowIdx : IVec S351 32 := wrap27 (pyRem (floorDiv (flatPos (F := F)) (constantI S_ 32 27#32)) (constantI S_ 32 27#32))
/-- Its column: (position / 1) mod 27. -/
def colIdx : IVec S351 32 := wrap27 (pyRem (floorDiv (flatPos (F := F)) (constantI S_ 32 1#32)) (constantI S_ 32 27#32))
/-- Row and column side by side. -/
def pairIdx : IVec S351x2 32 :=
  concatenate S351x2 1 [⟨S351x1, broadcastInDim S351x1 ![0] bcast_S351_S351x1_0 (rowIdx (F := F))⟩,
    ⟨S351x1, broadcastInDim S351x1 ![0] bcast_S351_S351x1_0 (colIdx (F := F))⟩] concatenates_S351x1_S351x1_S351x2_d1

/-- The 27 features of every batch row: the dense row, then the 26 sparse ones. -/
def features (x0 : FVec F S65536x128 .f32) (x1 : FVec F S65536x26x128 .f32) : FVec F S65536x27x128 .f32 :=
  concatenate S65536x27x128 1 [⟨S65536x1x128, broadcastInDim S65536x1x128 ![0, 2] bcast_S65536x128_S65536x1x128_0_2 x0⟩,
    ⟨S65536x26x128, x1⟩] concatenates_S65536x1x128_S65536x26x128_S65536x27x128_d1
/-- Their Gram matrix per batch row. -/
def gramAll (x0 : FVec F S65536x128 .f32) (x1 : FVec F S65536x26x128 .f32) : FVec F S65536x27x27 .f32 :=
  Host.dotGeneral dot_S65536x27x128_S65536x27x128_S65536x27x27_2_2_1_1_0_0 none (features x0 x1) (features x0 x1)
/-- The reference's result. -/
def result (x0 : FVec F S65536x128 .f32) (x1 : FVec F S65536x26x128 .f32) : FVec F S65536x351 .f32 :=
  Host.gather gather_S65536x27x27_S351x2_S65536x351_0_12_n_n_12_1_6553611 (gramAll x0 x1) (pairIdx (F := F))

end Cert.ReferenceIdeal.Stages

end
-- ==== Proof.RefValue.lean ====
/-
  The reference's run read back: its result buffer ends at the composition of the named stages applied to the two
  argument arrays, and the arguments end as launched.

  The line of operations is read in three stretches. The first lays the dense rows as feature 0. The middle one computes,
  from whatever the buffers then hold, the Gram matrix of the 27 features and the two columns of the pair table (which
  depend on no input). The last lays the columns side by side and gathers. Within a stretch each operation's result is
  read at its own buffer and every other buffer is passed through.

  A module-local function's operations read and write their buffers at the tensor type the function states, moved to the
  buffer's own type and back; at these buffers the two types are one, so the moves are the identity (the lemmas
  `toBuf_…` / `ofBuf_…` below, and `ofBuf_toBuf` for a value written and read back through one reference).
-/
import proofs.«147877_j790273983046_1_alg».proof.Proof.RefRun
import proofs.«147877_j790273983046_1_alg».proof.Proof.RefStages

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Running one stretch and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Contents written through a typed reference and read back through it are the contents. -/
theorem ofBuf_toBuf {Val : EltTy → Type} {T : BufTy} (x : TRef sig T) (v : T.Contents Val) : x.ofBuf (x.toBuf v) = v := by
  obtain ⟨r, h, hd, hu⟩ := x
  subst h
  rfl

/-! At a buffer whose type is the stated one, writing and reading through the typed reference change nothing. -/
theorem toBuf_main_v3 (p1 p2 p3) (v : (⟨S27x27, .f32⟩ : BufTy).Contents (Elt F)) :
    (TRef.of main_v3 p1 p2 p3 : TRef sig ⟨S27x27, .f32⟩).toBuf v = v := rfl
theorem ofBuf_main_v3 (p1 p2 p3) (v : (⟨S27x27, .f32⟩ : BufTy).Contents (Elt F)) :
    (TRef.of main_v3 p1 p2 p3 : TRef sig ⟨S27x27, .f32⟩).ofBuf v = v := rfl
theorem toBuf_main_v4 (p1 p2 p3) (v : (⟨S27x27, .f32⟩ : BufTy).Contents (Elt F)) :
    (TRef.of main_v4 p1 p2 p3 : TRef sig ⟨S27x27, .f32⟩).toBuf v = v := rfl
theorem ofBuf_main_v4 (p1 p2 p3) (v : (⟨S27x27, .f32⟩ : BufTy).Contents (Elt F)) :
    (TRef.of main_v4 p1 p2 p3 : TRef sig ⟨S27x27, .f32⟩).ofBuf v = v := rfl
theorem toBuf_main_v6 (p1 p2 p3) (v : (⟨S27x27, .i1⟩ : BufTy).Contents (Elt F)) :
    (TRef.of main_v6 p1 p2 p3 : TRef sig ⟨S27x27, .i1⟩).toBuf v = v := rfl
theorem ofBuf_main_v6 (p1 p2 p3) (v : (⟨S27x27, .i1⟩ : BufTy).Contents (Elt F)) :
    (TRef.of main_v6 p1 p2 p3 : TRef sig ⟨S27x27, .i1⟩).ofBuf v = v := rfl
theorem toBuf_main_call1_v0 (p1 p2 p3) (v : (⟨S729, .i1⟩ : BufTy).Contents (Elt F)) :
    (TRef.of main_call1_v0 p1 p2 p3 : TRef sig ⟨S729, .i1⟩).toBuf v = v := rfl
theorem ofBuf_main_call1_v0 (p1 p2 p3) (v : (⟨S729, .i1⟩ : BufTy).Contents (Elt F)) :
    (TRef.of main_call1_v0 p1 p2 p3 : TRef sig ⟨S729, .i1⟩).ofBuf v = v := rfl
theorem toBuf_main_v7 (p1 p2 p3) (v : (⟨S729, .i32⟩ : BufTy).Contents (Elt F)) :
    (TRef.of main_v7 p1 p2 p3 : TRef sig ⟨S729, .i32⟩).toBuf v = v := rfl
theorem ofBuf_main_v7 (p1 p2 p3) (v : (⟨S729, .i32⟩ : BufTy).Contents (Elt F)) :
    (TRef.of main_v7 p1 p2 p3 : TRef sig ⟨S729, .i32⟩).ofBuf v = v := rfl
theorem toBuf_main_v9 (p1 p2 p3) (v : (⟨S729, .i32⟩ : BufTy).Contents (Elt F)) :
    (TRef.of main_v9 p1 p2 p3 : TRef sig ⟨S729, .i32⟩).toBuf v = v := rfl
theorem ofBuf_main_v9 (p1 p2 p3) (v : (⟨S729, .i32⟩ : BufTy).Contents (Elt F)) :
    (TRef.of main_v9 p1 p2 p3 : TRef sig ⟨S729, .i32⟩).ofBuf v = v := rfl
theorem toBuf_main_v17 (p1 p2 p3) (v : (⟨S351, .i32⟩ : BufTy).Contents (Elt F)) :
    (TRef.of main_v17 p1 p2 p3 : TRef sig ⟨S351, .i32⟩).toBuf v = v := rfl
theorem ofBuf_main_v17 (p1 p2 p3) (v : (⟨S351, .i32⟩ : BufTy).Contents (Elt F)) :
    (TRef.of main_v17 p1 p2 p3 : TRef sig ⟨S351, .i32⟩).ofBuf v = v := rfl
theorem toBuf_main_v18 (p1 p2 p3) (v : (⟨S351, .i32⟩ : BufTy).Contents (Elt F)) :
    (TRef.of main_v18 p1 p2 p3 : TRef sig ⟨S351, .i32⟩).toBuf v = v := rfl
theorem ofBuf_main_v18 (p1 p2 p3) (v : (⟨S351, .i32⟩ : BufTy).Contents (Elt F)) :
    (TRef.of main_v18 p1 p2 p3 : TRef sig ⟨S351, .i32⟩).ofBuf v = v := rfl
theorem toBuf_main_v19 (p1 p2 p3) (v : (⟨S351, .i32⟩ : BufTy).Contents (Elt F)) :
    (TRef.of main_v19 p1 p2 p3 : TRef sig ⟨S351, .i32⟩).toBuf v = v := rfl
theorem ofBuf_main_v19 (p1 p2 p3) (v : (⟨S351, .i32⟩ : BufTy).Contents (Elt F)) :
    (TRef.of main_v19 p1 p2 p3 : TRef sig ⟨S351, .i32⟩).ofBuf v = v := rfl
theorem toBuf_main_v20 (p1 p2 p3) (v : (⟨S351, .i32⟩ : BufTy).Contents (Elt F)) :
    (TRef.of main_v20 p1 p2 p3 : TRef sig ⟨S351, .i32⟩).toBuf v = v := rfl
theorem ofBuf_main_v20 (p1 p2 p3) (v : (⟨S351, .i32⟩ : BufTy).Contents (Elt F)) :
    (TRef.of main_v20 p1 p2 p3 : TRef sig ⟨S351, .i32⟩).ofBuf v = v := rfl
theorem toBuf_main_v21 (p1 p2 p3) (v : (⟨S351, .i32⟩ : BufTy).Contents (Elt F)) :
    (TRef.of main_v21 p1 p2 p3 : TRef sig ⟨S351, .i32⟩).toBuf v = v := rfl
theorem ofBuf_main_v21 (p1 p2 p3) (v : (⟨S351, .i32⟩ : BufTy).Contents (Elt F)) :
    (TRef.of main_v21 p1 p2 p3 : TRef sig ⟨S351, .i32⟩).ofBuf v = v := rfl
theorem toBuf_main_v22 (p1 p2 p3) (v : (⟨S351, .i32⟩ : BufTy).Contents (Elt F)) :
    (TRef.of main_v22 p1 p2 p3 : TRef sig ⟨S351, .i32⟩).toBuf v = v := rfl
theorem ofBuf_main_v22 (p1 p2 p3) (v : (⟨S351, .i32⟩ : BufTy).Contents (Elt F)) :
    (TRef.of main_v22 p1 p2 p3 : TRef sig ⟨S351, .i32⟩).ofBuf v = v := rfl
theorem toBuf_main_c_1 (p1 p2 p3) (v : (⟨S_, .i32⟩ : BufTy).Contents (Elt F)) :
    (TRef.of main_c_1 p1 p2 p3 : TRef sig ⟨S_, .i32⟩).toBuf v = v := rfl
theorem ofBuf_main_c_1 (p1 p2 p3) (v : (⟨S_, .i32⟩ : BufTy).Contents (Elt F)) :
    (TRef.of main_c_1 p1 p2 p3 : TRef sig ⟨S_, .i32⟩).ofBuf v = v := rfl
theorem toBuf_main_c_5 (p1 p2 p3) (v : (⟨S_, .i32⟩ : BufTy).Contents (Elt F)) :
    (TRef.of main_c_5 p1 p2 p3 : TRef sig ⟨S_, .i32⟩).toBuf v = v := rfl
theorem ofBuf_main_c_5 (p1 p2 p3) (v : (⟨S_, .i32⟩ : BufTy).Contents (Elt F)) :
    (TRef.of main_c_5 p1 p2 p3 : TRef sig ⟨S_, .i32⟩).ofBuf v = v := rfl
theorem toBuf_main_c_6 (p1 p2 p3) (v : (⟨S_, .i32⟩ : BufTy).Contents (Elt F)) :
    (TRef.of main_c_6 p1 p2 p3 : TRef sig ⟨S_, .i32⟩).toBuf v = v := rfl
theorem ofBuf_main_c_6 (p1 p2 p3) (v : (⟨S_, .i32⟩ : BufTy).Contents (Elt F)) :
    (TRef.of main_c_6 p1 p2 p3 : TRef sig ⟨S_, .i32⟩).ofBuf v = v := rfl
theorem toBuf_main_c_7 (p1 p2 p3) (v : (⟨S_, .i32⟩ : BufTy).Contents (Elt F)) :
    (TRef.of main_c_7 p1 p2 p3 : TRef sig ⟨S_, .i32⟩).toBuf v = v := rfl
theorem ofBuf_main_c_7 (p1 p2 p3) (v : (⟨S_, .i32⟩ : BufTy).Contents (Elt F)) :
    (TRef.of main_c_7 p1 p2 p3 : TRef sig ⟨S_, .i32⟩).ofBuf v = v := rfl
theorem toBuf_main_c_8 (p1 p2 p3) (v : (⟨S_, .i32⟩ : BufTy).Contents (Elt F)) :
    (TRef.of main_c_8 p1 p2 p3 : TRef sig ⟨S_, .i32⟩).toBuf v = v := rfl
theorem ofBuf_main_c_8 (p1 p2 p3) (v : (⟨S_, .i32⟩ : BufTy).Contents (Elt F)) :
    (TRef.of main_c_8 p1 p2 p3 : TRef sig ⟨S_, .i32⟩).ofBuf v = v := rfl

/-! ## The first stretch -/

theorem head_v0 (V : Valuation τ sig (Elt F)) :
    after opsHead V (main_v0 : DevRef τ sig)
      = broadcastInDim S65536x1x128 ![0, 2] bcast_S65536x128_S65536x1x128_0_2 (V (main_arg0 : DevRef τ sig)) := by
  after_results
theorem head_arg0 (V : Valuation τ sig (Elt F)) : after opsHead V (main_arg0 : DevRef τ sig) = V (main_arg0 : DevRef τ sig) := by
  after_results
theorem head_arg1 (V : Valuation τ sig (Elt F)) : after opsHead V (main_arg1 : DevRef τ sig) = V (main_arg1 : DevRef τ sig) := by
  after_results

/-! ## The middle stretch -/

set_option maxRecDepth 16384 in
set_option maxHeartbeats 1600000 in
/-- The Gram matrix of the features laid from buffer `main_v0` (feature 0) and the sparse argument. -/
theorem mid_v2 (W : Valuation τ sig (Elt F)) :
    after opsMid W (main_v2 : DevRef τ sig)
      = Host.dotGeneral dot_S65536x27x128_S65536x27x128_S65536x27x27_2_2_1_1_0_0 none
          (concatenate S65536x27x128 1 [⟨S65536x1x128, (W (main_v0 : DevRef τ sig) : (⟨S65536x1x128, .f32⟩ : BufTy).Contents (Elt F))⟩,
            ⟨S65536x26x128, (W (main_arg1 : DevRef τ sig) : (⟨S65536x26x128, .f32⟩ : BufTy).Contents (Elt F))⟩]
            concatenates_S65536x1x128_S65536x26x128_S65536x27x128_d1)
          (concatenate S65536x27x128 1 [⟨S65536x1x128, (W (main_v0 : DevRef τ sig) : (⟨S65536x1x128, .f32⟩ : BufTy).Contents (Elt F))⟩,
            ⟨S65536x26x128, (W (main_arg1 : DevRef τ sig) : (⟨S65536x26x128, .f32⟩ : BufTy).Contents (Elt F))⟩]
            concatenates_S65536x1x128_S65536x26x128_S65536x27x128_d1) := by
  after_results_simp

set_option maxRecDepth 16384 in
set_option maxHeartbeats 1600000 in
/-- The table's row column. -/
theorem mid_v33 (W : Valuation τ sig (Elt F)) :
    after opsMid W (main_v33 : DevRef τ sig) = broadcastInDim S351x1 ![0] bcast_S351_S351x1_0 (Stages.rowIdx (F := F)) := by
  after_results_simp
  simp only [ofBuf_toBuf, toBuf_main_v3, ofBuf_main_v3, toBuf_main_v4, ofBuf_main_v4, toBuf_main_v6, ofBuf_main_v6, toBuf_main_call1_v0, ofBuf_main_call1_v0, toBuf_main_v7, ofBuf_main_v7, toBuf_main_v9, ofBuf_main_v9, toBuf_main_v17, ofBuf_main_v17, toBuf_main_v18, ofBuf_main_v18, toBuf_main_v19, ofBuf_main_v19, toBuf_main_v20, ofBuf_main_v20, toBuf_main_v21, ofBuf_main_v21, toBuf_main_v22, ofBuf_main_v22, toBuf_main_c_1, ofBuf_main_c_1, toBuf_main_c_5, ofBuf_main_c_5, toBuf_main_c_6, ofBuf_main_c_6, toBuf_main_c_7, ofBuf_main_c_7, toBuf_main_c_8, ofBuf_main_c_8]
  rfl

set_option maxRecDepth 16384 in
set_option maxHeartbeats 1600000 in
/-- The table's column column. -/
theorem mid_v34 (W : Valuation τ sig (Elt F)) :
    after opsMid W (main_v34 : DevRef τ sig) = broadcastInDim S351x1 ![0] bcast_S351_S351x1_0 (Stages.colIdx (F := F)) := by
  after_results_simp
  simp only [ofBuf_toBuf, toBuf_main_v3, ofBuf_main_v3, toBuf_main_v4, ofBuf_main_v4, toBuf_main_v6, ofBuf_main_v6, toBuf_main_call1_v0, ofBuf_main_call1_v0, toBuf_main_v7, ofBuf_main_v7, toBuf_main_v9, ofBuf_main_v9, toBuf_main_v17, ofBuf_main_v17, toBuf_main_v18, ofBuf_main_v18, toBuf_main_v19, ofBuf_main_v19, toBuf_main_v20, ofBuf_main_v20, toBuf_main_v21, ofBuf_main_v21, toBuf_main_v22, ofBuf_main_v22, toBuf_main_c_1, ofBuf_main_c_1, toBuf_main_c_5, ofBuf_main_c_5, toBuf_main_c_6, ofBuf_main_c_6, toBuf_main_c_7, ofBuf_main_c_7, toBuf_main_c_8, ofBuf_main_c_8]
  rfl

set_option maxRecDepth 16384 in
theorem mid_arg0 (W : Valuation τ sig (Elt F)) : after opsMid W (main_arg0 : DevRef τ sig) = W (main_arg0 : DevRef τ sig) := by
  after_results_simp
set_option maxRecDepth 16384 in
theorem mid_arg1 (W : Valuation τ sig (Elt F)) : after opsMid W (main_arg1 : DevRef τ sig) = W (main_arg1 : DevRef τ sig) := by
  after_results_simp

/-! ## The last stretch -/

theorem tail_v36 (W : Valuation τ sig (Elt F)) :
    after opsTail W (main_v36 : DevRef τ sig)
      = Host.gather gather_S65536x27x27_S351x2_S65536x351_0_12_n_n_12_1_6553611
          (W (main_v2 : DevRef τ sig) : (⟨S65536x27x27, .f32⟩ : BufTy).Contents (Elt F))
          (concatenate S351x2 1 [⟨S351x1, (W (main_v33 : DevRef τ sig) : (⟨S351x1, .i32⟩ : BufTy).Contents (Elt F))⟩,
            ⟨S351x1, (W (main_v34 : DevRef τ sig) : (⟨S351x1, .i32⟩ : BufTy).Contents (Elt F))⟩] concatenates_S351x1_S351x1_S351x2_d1) := by
  after_results
theorem tail_arg0 (W : Valuation τ sig (Elt F)) : after opsTail W (main_arg0 : DevRef τ sig) = W (main_arg0 : DevRef τ sig) := by
  after_results
theorem tail_arg1 (W : Valuation τ sig (Elt F)) : after opsTail W (main_arg1 : DevRef τ sig) = W (main_arg1 : DevRef τ sig) := by
  after_results

/-! ## The whole line -/

/-- The fold of the operations at the result buffer is the stages' composition. -/
theorem out_eq (V : Valuation τ sig (Elt F)) :
    after ops V (main_v36 : DevRef τ sig)
      = Stages.result (V (main_arg0 : DevRef τ sig)) (V (main_arg1 : DevRef τ sig)) := by
  rw [ops_split, after_append, after_append, tail_v36, mid_v2, mid_v33, mid_v34, head_v0, head_arg1]
  rfl

theorem arg0_eq (V : Valuation τ sig (Elt F)) : after ops V (main_arg0 : DevRef τ sig) = V (main_arg0 : DevRef τ sig) := by
  rw [ops_split, after_append, after_append, tail_arg0, mid_arg0, head_arg0]

theorem arg1_eq (V : Valuation τ sig (Elt F)) : after ops V (main_arg1 : DevRef τ sig) = V (main_arg1 : DevRef τ sig) := by
  rw [ops_split, after_append, after_append, tail_arg1, mid_arg1, head_arg1]

/-- Every weakly fair execution of the reference terminates with the result buffer at the stages' composition of the
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = Stages.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out_eq _), (h c main_arg0).trans (arg0_eq _),
      (h c main_arg1).trans (arg1_eq _)⟩)
    (run_main m ρ)

end Cert.ReferenceIdeal.Ops

end
-- ==== Proof.LibCumsum.lean ====
/-
  A running sum written as a reduce-window, read as a sum.

  jnp.cumsum over n words is printed as a reduce-window of window n, stride 1, padded n - 1 at the low end: result entry
  j folds the n positions j, …, j + n - 1 of the padded array, of which the first n - 1 - j are padding (the initial
  value, zero) and the others are entries 0, …, j. So entry j is the sum of entries 0 … j.
-/
import Mathlib.Algebra.BigOperators.Fin
import Idealize.ShloMosaic.Lib.ValueIdx
import Idealize.ShloMosaic.Lib.ValueIdxRank1
import Idealize.ShloMosaic.Lib.StableHlo.Predicate

noncomputable section

open scoped BigOperators

namespace Cert.LibCumsum

open Idealize.ShloMosaic Idealize.ShloMosaic.ValueIdx

/-- A left fold of word addition from a word is that word plus the sum of the values, modulo 2³². -/
theorem toNat_foldl_addi {ι : Type} (l : List ι) (g : ι → BitVec 32) (a : BitVec 32) :
    (l.foldl (fun r k => IntOp.addi r (g k)) a).toNat = (a.toNat + (l.map fun k => (g k).toNat).sum) % 2 ^ 32 := by
  induction l generalizing a with
  | nil => simp [Nat.mod_eq_of_lt a.isLt]
  | cons k l ih =>
    rw [List.foldl_cons, ih, show IntOp.addi a (g k) = a + g k from rfl, BitVec.toNat_add, List.map_cons, List.sum_cons]
    omega

/-- The word that the window starting at j of a rank-1 array padded m low reads at window position i (stride 1): entry
    j + i - m where that is inside the array, the padding word v elsewhere. -/
theorem window_read {n m : Nat} (x : IVec (⟨1, ![n]⟩ : Shape) 32) (v : BitVec 32) (j : Fin n) (e : 1 = 1)
    (i : (⟨1, ![n]⟩ : Shape).Idx) :
    (if hin : ∀ a : Fin 1, (![m] : Fin 1 → Nat) a ≤ (ix1 j (Fin.cast e a)).val * (![1] : Fin 1 → Nat) a + (i a).val ∧
          (ix1 j (Fin.cast e a)).val * (![1] : Fin 1 → Nat) a + (i a).val - (![m] : Fin 1 → Nat) a < (⟨1, ![n]⟩ : Shape).size a then
        x (fun a => ⟨(ix1 j (Fin.cast e a)).val * (![1] : Fin 1 → Nat) a + (i a).val - (![m] : Fin 1 → Nat) a, (hin a).2⟩)
      else v)
      = if hin : m ≤ j.val + (i 0).val ∧ j.val + (i 0).val - m < n then x (ix1 ⟨j.val + (i 0).val - m, hin.2⟩) else v := by
  have hcond : (∀ a : Fin 1, (![m] : Fin 1 → Nat) a ≤ (ix1 j (Fin.cast e a)).val * (![1] : Fin 1 → Nat) a + (i a).val ∧
          (ix1 j (Fin.cast e a)).val * (![1] : Fin 1 → Nat) a + (i a).val - (![m] : Fin 1 → Nat) a < (⟨1, ![n]⟩ : Shape).size a)
      ↔ (m ≤ j.val + (i 0).val ∧ j.val + (i 0).val - m < n) := by
    rw [Fin.forall_fin_one]
    show (m ≤ j.val * 1 + (i 0).val ∧ j.val * 1 + (i 0).val - m < n) ↔ _
    rw [Nat.mul_one]
  by_cases hc : m ≤ j.val + (i 0).val ∧ j.val + (i 0).val - m < n
  · rw [dif_pos (hcond.2 hc), dif_pos hc]
    congr 1
    funext a
    match a with
    | ⟨0, _⟩ => exact Fin.ext (by show j.val * 1 + (i 0).val - m = _; rw [Nat.mul_one])
  · rw [dif_neg (fun h' => hc (hcond.1 h')), dif_neg hc]

/-- Entry j of the running sum of n words (window n, padded m = n - 1 low, from a zero initial value), as a natural
    number, is the sum of entries 0 … j, when the whole sum fits a word. -/
theorem cumsum_toNat {n m : Nat} (hm : m + 1 = n) (x : IVec (⟨1, ![n]⟩ : Shape) 32) (z : IVec (⟨0, ![]⟩ : Shape) 32)
    (hz : z ix0 = 0#32)
    (h : (⟨1, ![n]⟩ : Shape).ReduceWindows (![n] : Fin 1 → Nat) ![1] ![m] ![0] (⟨1, ![n]⟩ : Shape))
    (hu : 0 < (⟨0, ![]⟩ : Shape).numel)
    (hlt : (∑ l : Fin n, (x (ix1 l)).toNat) < 2 ^ 32) (j : Fin n) :
    (Host.reduceWindow IntOp.addi (![n] : Fin 1 → Nat) ![1] ![m] ![0] x z h hu (ix1 j)).toNat
      = ∑ l : Fin n, if l.val ≤ j.val then (x (ix1 l)).toNat else 0 := by
  have hz' : z (Shape.Idx.first hu) = 0#32 := by rw [eq_ix0 (Shape.Idx.first hu)]; exact hz
  unfold Host.reduceWindow
  simp only []
  -- the fold is the sum, modulo 2³², of the words read at the n window positions
  rw [toNat_foldl_addi, hz', ← Fin.sum_univ_def, BitVec.toNat_zero, Nat.zero_add]
  -- the entries as naturals, zero past the end
  let xs : Nat → Nat := fun l => if hl : l < n then (x (ix1 ⟨l, hl⟩)).toNat else 0
  -- the value read at window position i: padding (zero) while j + i < m, entry j + i - m from there on
  let T : (⟨1, ![n]⟩ : Shape).Idx → Nat := fun i => if m ≤ j.val + (i 0).val then xs (j.val + (i 0).val - m) else 0
  have hT : ∀ i : (⟨1, ![n]⟩ : Shape).Idx,
      (if hin : m ≤ j.val + (i 0).val ∧ j.val + (i 0).val - m < n then x (ix1 ⟨j.val + (i 0).val - m, hin.2⟩)
        else 0#32).toNat = T i := by
    intro i
    have hj := j.isLt
    have hi' : (i 0).val < n := (i 0).isLt
    by_cases hc : m ≤ j.val + (i 0).val
    · have hb : j.val + (i 0).val - m < n := by omega
      show _ = if m ≤ j.val + (i 0).val then xs (j.val + (i 0).val - m) else 0
      rw [dif_pos ⟨hc, hb⟩, if_pos hc]
      show _ = if hl : j.val + (i 0).val - m < n then (x (ix1 ⟨j.val + (i 0).val - m, hl⟩)).toNat else 0
      rw [dif_pos hb]
    · show _ = if m ≤ j.val + (i 0).val then xs (j.val + (i 0).val - m) else 0
      rw [dif_neg (fun h' => hc h'.1), if_neg hc]; rfl
  -- the window positions in row-major order are the coordinates 0 … n - 1
  have e1 : (∑ k : Fin (⟨1, ![n]⟩ : Shape).numel, T ((⟨1, ![n]⟩ : Shape).rowMajor.symm k)) = ∑ kk : Fin n, T (ix1 kk) := by
    rw [Equiv.sum_comp (⟨1, ![n]⟩ : Shape).rowMajor.symm T, ← Equiv.sum_comp (idxEquiv1 (n := n)).symm T]
    rfl
  refine Eq.trans (congrArg (· % 2 ^ 32) (Eq.trans (Finset.sum_congr rfl fun k _ =>
    (congrArg BitVec.toNat (window_read (m := m) x 0#32 j _ ((⟨1, ![n]⟩ : Shape).rowMajor.symm k))).trans (hT _)) e1)) ?_
  -- window position k ≥ m - j reads entry l = j + k - m ≤ j: re-index the sum by l
  have e2 : (∑ kk : Fin n, T (ix1 kk)) = ∑ l : Fin n, if l.val ≤ j.val then (x (ix1 l)).toNat else 0 := by
    have a1 : (∑ kk : Fin n, T (ix1 kk)) = ∑ k ∈ Finset.range n, if m ≤ j.val + k then xs (j.val + k - m) else 0 :=
      Fin.sum_univ_eq_sum_range (fun k : Nat => if m ≤ j.val + k then xs (j.val + k - m) else 0) n
    have a2 : (∑ l : Fin n, if l.val ≤ j.val then (x (ix1 l)).toNat else 0)
        = ∑ l ∈ Finset.range n, if l ≤ j.val then xs l else 0 := by
      rw [← Fin.sum_univ_eq_sum_range (fun l : Nat => if l ≤ j.val then xs l else 0) n]
      refine Finset.sum_congr rfl fun l _ => ?_
      show _ = if l.val ≤ j.val then (if hl : l.val < n then (x (ix1 ⟨l.val, hl⟩)).toNat else 0) else 0
      rw [dif_pos l.isLt]
    rw [a1, a2, ← Finset.sum_filter, ← Finset.sum_filter]
    have hj := j.isLt
    refine Finset.sum_nbij' (fun k => j.val + k - m) (fun l => l + m - j.val) ?_ ?_ ?_ ?_ (fun _ _ => rfl)
    all_goals (intro a ha; simp only [Finset.mem_filter, Finset.mem_range] at ha ⊢; omega)
  rw [e2]
  -- a part of a sum that fits a word fits a word
  exact Nat.mod_eq_of_lt (lt_of_le_of_lt (Finset.sum_le_sum fun l _ => by split <;> omega) hlt)

end Cert.LibCumsum

end
-- ==== Proof.PrefixCount.lean ====
/-
  The running count of pairs: entry k of `prefixCount` is the number of pairs among entries 0 … k of the matrix read row
  by row.
-/
import Mathlib.Algebra.BigOperators.Fin
import Idealize.ShloMosaic.Lib.IdealHost
import Idealize.ShloMosaic.Lib.StableHlo.Predicate
import proofs.«147877_j790273983046_1_alg».proof.Proof.RefStages
import proofs.«147877_j790273983046_1_alg».proof.Proof.Pairs
import proofs.«147877_j790273983046_1_alg».proof.Proof.LibCumsum

noncomputable section

open scoped BigOperators

namespace Cert.ReferenceIdeal.Stages

open Cert.ReferenceIdeal Cert.ReferenceIdeal.Gen Idealize.ShloMosaic Idealize.ShloMosaic.ValueIdx
open Idealize.ShloMosaic.StableHlo.Predicate

/-- The matrix of zeros reads the extended real zero everywhere. -/
theorem zerosM_apply (i : S27x27.Idx) : zerosM (F := Ideal) i = 0 := by
  show Ideal.ofBits .f32 0x00000000#32 = 0
  exact Ideal.ofBits_zero_f32

/-- The matrix of ones reads the extended real one everywhere. -/
theorem onesM_apply (i : S27x27.Idx) : onesM (F := Ideal) i = 1 := by
  show Ideal.ofBits .f32 0x3F800000#32 = 1
  exact Ideal.ofBits_one_f32

/-- Entry (r, c) of `upper` is one above the diagonal and zero on and below it: the test "r + 0 ≥ c" on words is the
    test c ≤ r on the coordinates, both below 27. -/
theorem upper_apply (r c : Fin 27) : upper (F := Ideal) (ix2 r c) = if r.val < c.val then 1 else 0 := by
  have hr := r.isLt
  have hc := c.isLt
  have hcond : cmpi .sge (addi (iotaInDim S27x27 32 0) (broadcastInDim S27x27 ![] bcast_S_S27x27 (constantI S_ 32 0#32)))
      (iotaInDim S27x27 32 1) (ix2 r c) = IntOp.cmpi .sge (BitVec.ofNat 32 r.val + 0#32) (BitVec.ofNat 32 c.val) := rfl
  unfold upper
  rw [select_apply, zerosM_apply, onesM_apply, hcond, BitVec.add_zero]
  have hrn : (BitVec.ofNat 32 r.val).toNat = r.val := by rw [BitVec.toNat_ofNat]; exact Nat.mod_eq_of_lt (by omega)
  have hcn : (BitVec.ofNat 32 c.val).toNat = c.val := by rw [BitVec.toNat_ofNat]; exact Nat.mod_eq_of_lt (by omega)
  have hiff := sge_iff_toNat (a := BitVec.ofNat 32 r.val) (b := BitVec.ofNat 32 c.val) (by omega) (by omega)
  rw [hrn, hcn] at hiff
  by_cases h : r.val < c.val
  · have h0 : IntOp.cmpi .sge (BitVec.ofNat 32 r.val) (BitVec.ofNat 32 c.val) = 0#1 :=
      eq_zero_of_ne_one (fun h1 => by have := hiff.1 h1; omega)
    rw [if_pos h, h0, select_zero]
  · rw [if_neg h, hiff.2 (by omega), select_one]

/-- Entry (r, c) is a pair exactly when r < c. -/
theorem isPair_apply (r c : Fin 27) : isPair (F := Ideal) (ix2 r c) = if r.val < c.val then 1#1 else 0#1 := by
  unfold isPair
  rw [cmpf_apply, upper_apply, zerosM_apply, Ideal.cmpf_def]
  unfold Ideal.cmp
  by_cases h : r.val < c.val
  · rw [if_pos h, if_pos h]; simp
  · rw [if_neg h, if_neg h]; simp

/-- The mask word at position k of the row-by-row reading. -/
theorem flatMask_toNat (k : Fin 729) : (flatMask (F := Ideal) (ix1 k)).toNat = if k.val / 27 < k.val % 27 then 1 else 0 := by
  have hk := k.isLt
  -- position k of the row-by-row reading is entry (k / 27, k % 27): 27 (k / 27) + k % 27 = k
  have hread : shapeCast S729 (isPair (F := Ideal)) shapeCasts_S27x27_S729 (ix1 k)
      = isPair (F := Ideal) (ix2 (⟨k.val / 27, by omega⟩ : Fin 27) (⟨k.val % 27, by omega⟩ : Fin 27)) :=
    congrArg (isPair (F := Ideal)) (Shape.reshapeEquiv_eq_of_rowMajor shapeCasts_S27x27_S729 (by
      rw [Shape.rowMajor_val_two, Shape.rowMajor_val_one]
      show k.val / 27 * 27 + k.val % 27 = k.val
      omega))
  unfold flatMask
  rw [extui_apply, hread, isPair_apply, toNat_setWidth_bit]
  by_cases h : k.val / 27 < k.val % 27
  · rw [if_pos h, if_pos h, if_pos rfl]
  · rw [if_neg h, if_neg h, if_neg (by decide)]

/-- The number of pairs among entries 0 … k, counted entry by entry: each entry that is a pair adds one. -/
theorem sum_range_cnt : ∀ k, k < 729 → (∑ l ∈ Finset.range (k + 1), if l / 27 < l % 27 then 1 else 0) = Cert.Tri.cnt k
  | 0, _ => by rw [Finset.sum_range_one, Cert.Tri.cnt_zero]; rfl
  | k + 1, hk => by
    rw [Finset.sum_range_succ, sum_range_cnt k (by omega)]
    exact (Cert.Tri.cnt_succ ⟨k, by omega⟩).symm

/-- The running count at entry k. -/
theorem prefixCount_toNat (k : Fin 729) : (prefixCount (F := Ideal) (ix1 k)).toNat = Cert.Tri.cnt k.val := by
  have hk := k.isLt
  have hz : zero0 ix0 = 0#32 := rfl
  -- 729 bits sum to at most 729, so the running sum never wraps
  have hsum : (∑ l : Fin 729, (flatMask (F := Ideal) (ix1 l)).toNat) < 2 ^ 32 := by
    calc (∑ l : Fin 729, (flatMask (F := Ideal) (ix1 l)).toNat) ≤ ∑ _l : Fin 729, 1 :=
          Finset.sum_le_sum (fun l _ => by rw [flatMask_toNat]; split <;> omega)
      _ = 729 := by simp
      _ < 2 ^ 32 := by norm_num
  unfold prefixCount
  -- the running sum at k is the sum of the mask words at positions l ≤ k
  rw [Cert.LibCumsum.cumsum_toNat (n := 729) (m := 728) rfl _ _ hz _ _ hsum k]
  simp only [flatMask_toNat]
  rw [Fin.sum_univ_eq_sum_range (fun l : Nat => if l ≤ k.val then (if l / 27 < l % 27 then 1 else 0) else 0) 729,
    ← Finset.sum_filter,
    show (Finset.range 729).filter (fun l => l ≤ k.val) = Finset.range (k.val + 1) from by
      ext l; simp only [Finset.mem_filter, Finset.mem_range]; omega]
  exact sum_range_cnt k.val hk

end Cert.ReferenceIdeal.Stages

end
-- ==== Proof.Counts.lean ====
/-
  How many entries have each running count: `counts` adds one at position `cnt k` for each of the 729 entries k, an
  entry whose running count is 351 falling outside the 351 positions and being dropped.

  The clip at zero and the wrap of negatives read, at one position, as word operations that leave a word below 2³¹
  alone. The histogram is a left fold over the 729 positions; each step adds one at the position the entry's index word
  names when that is one of the 351, and nothing otherwise, so the fold adds at v the number of entries landing there —
  as words, and as numbers since 729 is far below 2³².
-/
import proofs.«147877_j790273983046_1_alg».proof.Proof.PrefixCount
import Idealize.ShloMosaic.Lib.StableHlo.Predicate
import Idealize.ShloMosaic.Lib.ValueIdxRank1

noncomputable section

open scoped BigOperators

namespace Cert.ReferenceIdeal.Stages

open Cert.ReferenceIdeal Cert.ReferenceIdeal.Gen Idealize.ShloMosaic Idealize.ShloMosaic.ValueIdx
open Idealize.ShloMosaic.StableHlo.Predicate

/-- A scalar laid at each of 729 positions reads the scalar. -/
theorem splat729_apply {α : Type} (d : S_.Idx → α) (j : S729.Idx) : splat729 d j = d ix0 := by
  unfold splat729
  rw [bcast_scalar bcast_S_S729 h_S_]
  congr 1
  funext a
  exact a.elim0

/-- A scalar laid at each of 351 positions reads the scalar. -/
theorem splat351_apply {α : Type} (d : S_.Idx → α) (j : S351.Idx) : splat351 d j = d ix0 := by
  unfold splat351
  rw [bcast_scalar bcast_S_S351 h_S_]
  congr 1
  funext a
  exact a.elim0

/-- The clip at one position: the larger of zero and the running count, as signed numbers. -/
theorem clipped_apply (j : S729.Idx) : clipped (F := Ideal) j = IntOp.maxsi 0#32 (prefixCount (F := Ideal) j) := by
  unfold clipped
  show IntOp.maxsi (splat729 (constantI S_ 32 0#32) j) (prefixCount (F := Ideal) j) = _
  rw [splat729_apply]
  rfl

/-- The wrap at one position: 351 added where the clipped word is negative. -/
theorem wrapped_apply (j : S729.Idx) : wrapped (F := Ideal) j =
    Scalar.select (IntOp.cmpi .slt (clipped (F := Ideal) j) 0#32) (IntOp.addi (clipped (F := Ideal) j) 351#32) (clipped (F := Ideal) j) := by
  unfold wrapped
  show Scalar.select (IntOp.cmpi .slt (clipped (F := Ideal) j) (splat729 (constantI S_ 32 0#32) j))
    (IntOp.addi (clipped (F := Ideal) j) (splat729 (constantI S_ 32 351#32) j)) (clipped (F := Ideal) j) = _
  rw [splat729_apply, splat729_apply]
  rfl

/-- A word that is non-negative as a signed number passes the clip at zero and the wrap of negatives unchanged. -/
theorem wrap_word (p : BitVec 32) (hp : p.toNat < 2 ^ 31) :
    Scalar.select (IntOp.cmpi .slt (IntOp.maxsi 0#32 p) 0#32) (IntOp.addi (IntOp.maxsi 0#32 p) 351#32) (IntOp.maxsi 0#32 p) = p := by
  have hti : p.toInt = p.toNat := toInt_eq_toNat_of_lt hp
  have h0 : (0#32 : BitVec 32).toInt = 0 := by decide
  have hmax : IntOp.maxsi 0#32 p = p := by
    unfold IntOp.maxsi
    rw [if_neg]
    simp only [BitVec.slt, hti, h0, decide_eq_true_eq]
    omega
  rw [hmax]
  have hc : IntOp.cmpi .slt p 0#32 = 0#1 := by
    apply eq_zero_of_ne_one
    intro h
    have := (slt_iff_toNat hp (by decide)).1 h
    simp at this
  rw [hc, select_zero]

/-- The wrapped word is the running count's word. -/
theorem wrapped_eq_prefixCount (k : Fin 729) : wrapped (F := Ideal) (ix1 k) = prefixCount (F := Ideal) (ix1 k) := by
  have hp := prefixCount_toNat k
  have hle := Cert.Tri.cnt_le k
  rw [wrapped_apply, clipped_apply]
  exact wrap_word (prefixCount (F := Ideal) (ix1 k)) (by rw [hp]; omega)

/-- The clip at zero and the wrap of negatives leave a running count as it is. -/
theorem wrapped_toNat (k : Fin 729) : (wrapped (F := Ideal) (ix1 k)).toNat = Cert.Tri.cnt k.val := by
  rw [wrapped_eq_prefixCount, prefixCount_toNat]

/-- Folding "add c n v at every position v" over a list adds, at v, the sum of the c n v. -/
theorem foldl_add_count {ι κ : Type} (L : List ι) (step : (κ → BitVec 32) → ι → κ → BitVec 32) (c : ι → κ → Nat)
    (hstep : ∀ r n v, step r n v = r v + BitVec.ofNat 32 (c n v)) (r : κ → BitVec 32) (v : κ) :
    L.foldl step r v = r v + BitVec.ofNat 32 ((L.map fun n => c n v).sum) := by
  induction L generalizing r with
  | nil => simp
  | cons n L ih =>
    rw [List.foldl_cons, ih, hstep, List.map_cons, List.sum_cons, BitVec.add_assoc, ← BitVec.ofNat_add]

/-- Where the update at position k lands: at its index word read signed when that is one of the 351 positions, nowhere
    otherwise. -/
theorem scatter_resultIdx (idx : IVec S729x1 32) (k : Fin 729) :
    scatter_S351_S729x1_S729_n_0_0_1.resultIdx? (ix1 k) idx =
      if h : 0 ≤ (idx (ix2 k 0)).toInt ∧ (idx (ix2 k 0)).toInt < 351 then
        some (ix1 ⟨(idx (ix2 k 0)).toInt.toNat, by omega⟩) else none := by
  have hstart : ∀ a, scatter_S351_S729x1_S729_n_0_0_1.start (ix1 k) idx a = (idx (ix2 k 0)).toInt := by
    intro a
    obtain rfl : a = 0 := Subsingleton.elim _ _
    unfold ScatterDims.start
    rw [dif_pos (show (0 : Fin 1) ∈ scatter_S351_S729x1_S729_n_0_0_1.scatterDimsToOperandDims from List.mem_singleton.mpr rfl)]
    congr 2
    funext b
    refine Fin.ext ?_
    match b with
    | ⟨0, _⟩ => rfl
    | ⟨1, _⟩ => rfl
  have hwin : ∀ a, scatter_S351_S729x1_S729_n_0_0_1.window (ix1 k) a = 0 := by
    intro a
    obtain rfl : a = 0 := Subsingleton.elim _ _
    unfold ScatterDims.window
    rw [dif_neg (by decide)]
  have hsz : ∀ a : Fin S351.rank, S351.size a = 351 := by
    intro a
    obtain rfl : a = 0 := Subsingleton.elim _ _
    rfl
  unfold ScatterDims.resultIdx?
  by_cases h : 0 ≤ (idx (ix2 k 0)).toInt ∧ (idx (ix2 k 0)).toInt < 351
  · rw [dif_pos h, dif_pos (by intro a; rw [hstart, hwin, hsz]; simpa using h)]
    congr 1
    funext a
    obtain rfl : a = 0 := Subsingleton.elim _ _
    refine Fin.ext ?_
    show (scatter_S351_S729x1_S729_n_0_0_1.start (ix1 k) idx 0 + (scatter_S351_S729x1_S729_n_0_0_1.window (ix1 k) 0 : Nat)).toNat = (idx (ix2 k 0)).toInt.toNat
    rw [hstart, hwin]
    simp
  · rw [dif_neg h, dif_neg (by intro hall; apply h; have := hall 0; rw [hstart, hwin, hsz] at this; simpa using this)]

/-- The update at position k lands at position v exactly when its index word, read signed, is v. -/
theorem scatter_resultIdx_eq_some_iff (idx : IVec S729x1 32) (k : Fin 729) (v : Fin 351) :
    scatter_S351_S729x1_S729_n_0_0_1.resultIdx? (ix1 k) idx = some (ix1 v) ↔ (idx (ix2 k 0)).toInt = (v.val : Int) := by
  rw [scatter_resultIdx]
  have hv := v.isLt
  split
  · next h =>
    constructor
    · intro e
      have e' := congrArg (fun i : S351.Idx => (i 0).val) (Option.some.inj e)
      change (idx (ix2 k 0)).toInt.toNat = v.val at e'
      omega
    · intro e
      refine congrArg some (congrArg ix1 (Fin.ext ?_))
      show (idx (ix2 k 0)).toInt.toNat = v.val
      omega
  · next h =>
    constructor
    · intro e; cases e
    · intro e; exfalso; apply h; omega

/-- The index array's word at row k is the wrapped running count at k. -/
theorem indexArray_apply (k : Fin 729) :
    broadcastInDim S729x1 ![0] bcast_S729_S729x1_0 (wrapped (F := Ideal)) (ix2 k 0) = wrapped (F := Ideal) (ix1 k) := by
  simp only [broadcastInDim]
  congr 1
  funext a
  obtain rfl : a = 0 := Subsingleton.elim _ _
  apply Fin.ext
  split
  · next h1 => change 729 = 1 at h1; omega
  · rfl

/-- Position v holds the number of entries whose running count is v. -/
theorem counts_toNat (v : Fin 351) :
    (counts (F := Ideal) (ix1 v)).toNat = ∑ k : Fin 729, if Cert.Tri.cnt k.val = v.val then 1 else 0 := by
  -- the fold over the 729 update positions adds, at v, one per position landing at v
  have hfold : counts (F := Ideal) (ix1 v) = splat351 (constantI S_ 32 0#32) (ix1 v) + BitVec.ofNat 32
      (((List.finRange S729.numel).map fun n =>
        if scatter_S351_S729x1_S729_n_0_0_1.resultIdx? (S729.rowMajor.symm n)
            (broadcastInDim S729x1 ![0] bcast_S729_S729x1_0 (wrapped (F := Ideal))) = some (ix1 v) then 1 else 0).sum) := by
    unfold counts Host.scatter
    refine foldl_add_count _ _ (fun n v' =>
      if scatter_S351_S729x1_S729_n_0_0_1.resultIdx? (S729.rowMajor.symm n)
          (broadcastInDim S729x1 ![0] bcast_S729_S729x1_0 (wrapped (F := Ideal))) = some v' then 1 else 0) ?_ _ _
    intro r n v'
    beta_reduce
    generalize scatter_S351_S729x1_S729_n_0_0_1.resultIdx? (S729.rowMajor.symm n)
      (broadcastInDim S729x1 ![0] bcast_S729_S729x1_0 (wrapped (F := Ideal))) = o
    cases o with
    | none =>
      show r v' = r v' + BitVec.ofNat 32 (if (none : Option S351.Idx) = some v' then 1 else 0)
      rw [if_neg (by simp)]
      simp
    | some i =>
      show (if v' = i then IntOp.addi (r i) (splat729 (constantI S_ 32 1#32) (S729.rowMajor.symm n)) else r v')
        = r v' + BitVec.ofNat 32 (if some i = some v' then 1 else 0)
      by_cases hv : v' = i
      · subst hv
        rw [if_pos rfl, if_pos rfl, splat729_apply]
        rfl
      · rw [if_neg hv, if_neg (fun e => hv (Option.some.inj e).symm)]
        simp
  -- the positions landing at v are those whose running count is v
  have hsum : ((List.finRange S729.numel).map fun n =>
        if scatter_S351_S729x1_S729_n_0_0_1.resultIdx? (S729.rowMajor.symm n)
            (broadcastInDim S729x1 ![0] bcast_S729_S729x1_0 (wrapped (F := Ideal))) = some (ix1 v) then 1 else 0).sum
      = ∑ k : Fin 729, if Cert.Tri.cnt k.val = v.val then 1 else 0 := by
    rw [← Fin.sum_univ_def,
      Equiv.sum_comp S729.rowMajor.symm (fun j : S729.Idx =>
        if scatter_S351_S729x1_S729_n_0_0_1.resultIdx? j
            (broadcastInDim S729x1 ![0] bcast_S729_S729x1_0 (wrapped (F := Ideal))) = some (ix1 v) then 1 else 0),
      ← Equiv.sum_comp (idxEquiv1 (n := 729)).symm]
    refine Finset.sum_congr rfl fun k _ => ?_
    show (if scatter_S351_S729x1_S729_n_0_0_1.resultIdx? (ix1 k)
            (broadcastInDim S729x1 ![0] bcast_S729_S729x1_0 (wrapped (F := Ideal))) = some (ix1 v) then 1 else 0) = _
    have hle := Cert.Tri.cnt_le k
    have hn := wrapped_toNat k
    have hint : (wrapped (F := Ideal) (ix1 k)).toInt = (Cert.Tri.cnt k.val : Int) := by
      rw [toInt_eq_toNat_of_lt (by rw [hn]; omega), hn]
    have hiff : scatter_S351_S729x1_S729_n_0_0_1.resultIdx? (ix1 k)
          (broadcastInDim S729x1 ![0] bcast_S729_S729x1_0 (wrapped (F := Ideal))) = some (ix1 v)
        ↔ Cert.Tri.cnt k.val = v.val := by
      rw [scatter_resultIdx_eq_some_iff, indexArray_apply, hint]
      exact Nat.cast_inj
    exact if_congr hiff rfl rfl
  have hlt : (∑ k : Fin 729, if Cert.Tri.cnt k.val = v.val then 1 else 0) < 2 ^ 32 := by
    calc (∑ k : Fin 729, if Cert.Tri.cnt k.val = v.val then 1 else 0)
        ≤ ∑ _k : Fin 729, 1 := Finset.sum_le_sum fun k _ => by split <;> omega
      _ = 729 := by simp
      _ < 2 ^ 32 := by decide
  rw [hfold, hsum, splat351_apply]
  show (0#32 + BitVec.ofNat 32 _).toNat = _
  rw [BitVec.zero_add, BitVec.toNat_ofNat]
  exact Nat.mod_eq_of_lt hlt

end Cert.ReferenceIdeal.Stages

end
-- ==== Proof.FlatPos.lean ====
/-
  The position of pair number p: `flatPos` at p is the number of entries whose running count is at most p, which is the
  entry number 27 · row + column of pair p, because the running count reaches p + 1 exactly there.
-/
import proofs.«147877_j790273983046_1_alg».proof.Proof.Counts
import Mathlib.Data.Fintype.Fin
import Mathlib.Algebra.BigOperators.Ring.Finset
import Mathlib.Algebra.Order.BigOperators.Group.Finset

noncomputable section

open scoped BigOperators

namespace Cert.ReferenceIdeal.Stages

open Cert.ReferenceIdeal Cert.ReferenceIdeal.Gen Idealize.ShloMosaic Idealize.ShloMosaic.ValueIdx

/-- The running count does not decrease from an entry to the next, -/
theorem cnt_le_succ (a : Nat) (h : a + 1 < 729) : Cert.Tri.cnt a ≤ Cert.Tri.cnt (a + 1) := by
  have h1 := Cert.Tri.cnt_succ ⟨a, by omega⟩
  simp only at h1
  rw [h1]
  exact Nat.le_add_right _ _

/-- so it is non-decreasing over the 729 entries. -/
theorem cnt_mono {a b : Nat} (hab : a ≤ b) (hb : b < 729) : Cert.Tri.cnt a ≤ Cert.Tri.cnt b := by
  induction b, hab using Nat.le_induction with
  | base => exact le_rfl
  | succ b hab ih => exact (ih (by omega)).trans (cnt_le_succ b hb)

/-- Of the n numbers below n, K are below K when K ≤ n. -/
theorem sum_lt_indicator (n K : Nat) (hK : K ≤ n) : (∑ k : Fin n, if k.val < K then 1 else 0) = K := by
  rw [Finset.sum_boole, Fin.card_filter_val_lt]
  simp [hK]

/-- The number of entries whose running count is at most p is pair p's entry number. -/
theorem card_cnt_le (p : Fin 351) :
    (∑ k : Fin 729, if Cert.Tri.cnt k.val ≤ p.val then 1 else 0) = 27 * Cert.Tri.rowOf p.val + Cert.Tri.colOf p.val := by
  have hKlt : 27 * Cert.Tri.rowOf p.val + Cert.Tri.colOf p.val < 729 := Cert.Tri.pos_lt p
  have hKpos : 0 < 27 * Cert.Tri.rowOf p.val + Cert.Tri.colOf p.val := Cert.Tri.pos_pos p
  have h1 : Cert.Tri.cnt (27 * Cert.Tri.rowOf p.val + Cert.Tri.colOf p.val - 1) = p.val := Cert.Tri.cnt_pos_pred p
  have h2 : Cert.Tri.cnt (27 * Cert.Tri.rowOf p.val + Cert.Tri.colOf p.val) = p.val + 1 := Cert.Tri.cnt_pos p
  generalize 27 * Cert.Tri.rowOf p.val + Cert.Tri.colOf p.val = K at hKlt hKpos h1 h2 ⊢
  have hind : ∀ k : Fin 729, (if Cert.Tri.cnt k.val ≤ p.val then 1 else 0) = (if k.val < K then 1 else 0) := by
    intro k
    by_cases hk : k.val < K
    · have h3 : Cert.Tri.cnt k.val ≤ Cert.Tri.cnt (K - 1) := cnt_mono (by omega) (by omega)
      rw [if_pos (by omega), if_pos hk]
    · have h3 : Cert.Tri.cnt K ≤ Cert.Tri.cnt k.val := cnt_mono (by omega) k.isLt
      rw [if_neg (by omega), if_neg hk]
  rw [Finset.sum_congr rfl (fun k _ => hind k)]
  exact sum_lt_indicator 729 K (by omega)

/-- A number c is equal to at most one of the positions 0 … 350. -/
theorem sum_eq_indicator_le_one (c : Nat) : (∑ l : Fin 351, if c = l.val then 1 else 0) ≤ 1 := by
  rw [Finset.sum_boole]
  simp only [Nat.cast_id]
  apply Finset.card_le_one.mpr
  intro a ha b hb
  simp only [Finset.mem_filter, Finset.mem_univ, true_and] at ha hb
  exact Fin.ext (ha.symm.trans hb)

/-- Among the positions 0 … p (p ≤ 350), a number c is met once when c ≤ p and never otherwise. -/
theorem sum_le_eq_indicator (c : Nat) (p : Fin 351) :
    (∑ l : Fin 351, if l.val ≤ p.val then (if c = l.val then 1 else 0) else 0) = if c ≤ p.val then 1 else 0 := by
  by_cases hc : c ≤ p.val
  · rw [if_pos hc, Finset.sum_eq_single (⟨c, by omega⟩ : Fin 351)]
    · rw [if_pos hc, if_pos rfl]
    · intro l _ hl
      have hne : c ≠ l.val := fun h => hl (Fin.ext h.symm)
      rw [if_neg hne]
      split <;> rfl
    · intro h
      exact absurd (Finset.mem_univ _) h
  · rw [if_neg hc]
    apply Finset.sum_eq_zero
    intro l _
    by_cases hl : l.val ≤ p.val
    · rw [if_pos hl, if_neg (by omega)]
    · rw [if_neg hl]

/-- The histogram sums to at most 729, the number of entries: each entry is counted at one position at most. -/
theorem sum_counts_le : (∑ l : Fin 351, (counts (F := Ideal) (ix1 l)).toNat) ≤ 729 := by
  rw [Finset.sum_congr rfl (fun l _ => counts_toNat l), Finset.sum_comm]
  calc (∑ k : Fin 729, ∑ l : Fin 351, if Cert.Tri.cnt k.val = l.val then 1 else 0)
      ≤ ∑ _k : Fin 729, 1 := Finset.sum_le_sum (fun k _ => sum_eq_indicator_le_one (Cert.Tri.cnt k.val))
    _ = 729 := by simp

theorem flatPos_toNat (p : Fin 351) :
    (flatPos (F := Ideal) (ix1 p)).toNat = 27 * Cert.Tri.rowOf p.val + Cert.Tri.colOf p.val := by
  have hz : zero0 ix0 = 0#32 := rfl
  have hlt : (∑ l : Fin 351, (counts (F := Ideal) (ix1 l)).toNat) < 2 ^ 32 :=
    lt_of_le_of_lt sum_counts_le (by norm_num)
  refine (Cert.LibCumsum.cumsum_toNat (n := 351) (m := 350) rfl (counts (F := Ideal)) zero0 hz
    reduceWindows_S351_S351_w351s1p350_0 h_S_ hlt p).trans ?_
  rw [← card_cnt_le p]
  have h1 : ∀ l : Fin 351, (if l.val ≤ p.val then (counts (F := Ideal) (ix1 l)).toNat else 0)
      = ∑ k : Fin 729, if l.val ≤ p.val then (if Cert.Tri.cnt k.val = l.val then 1 else 0) else 0 := by
    intro l
    by_cases hl : l.val ≤ p.val
    · simp only [if_pos hl]
      exact counts_toNat l
    · simp only [if_neg hl]
      exact Finset.sum_const_zero.symm
  rw [Finset.sum_congr rfl (fun l _ => h1 l), Finset.sum_comm]
  exact Finset.sum_congr rfl (fun k _ => sum_le_eq_indicator (Cert.Tri.cnt k.val) p)

end Cert.ReferenceIdeal.Stages

end
-- ==== Proof.RowCol.lean ====
/-
  Row and column from the position: jnp's floor division and remainder by 27 of a position below 729 are the plain
  quotient and remainder, and the wrap of negative indices changes nothing.

  Each stage acts on every one of the 351 words alone, so it is a function of words applied at each place: the
  floor division fdivW, the remainder remW (by the divisor, one in place of zero: nzW), the wrap wrapW. On the
  729 words 0 … 728 their compositions are computed outright: with divisor 27 the result is the quotient by 27
  (reduced by 27, which changes nothing below 27), with divisor 1 the remainder by 27. The position of pair p is
  27 · row + column with column below 27 and row below 26, so its quotient is the row and its remainder the column.
-/
import proofs.«147877_j790273983046_1_alg».proof.Proof.FlatPos

noncomputable section

namespace Cert.ReferenceIdeal.Stages

open Cert.ReferenceIdeal Cert.ReferenceIdeal.Gen Idealize.ShloMosaic Idealize.ShloMosaic.ValueIdx

/-- The sign of a word as a word: 0, -1 or 1. -/
def sgnW (x : BitVec 32) : BitVec 32 := if x = 0 then 0 else if x.msb then -1 else 1

/-- Floor division of words: the truncated quotient, one less when the signs differ and the remainder is not zero. -/
def fdivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The divisor, one in place of zero. -/
def nzW (d : BitVec 32) : BitVec 32 := Scalar.select (IntOp.cmpi .eq d 0#32) 1#32 d

/-- The remainder with the divisor's sign: the truncated remainder, the divisor added when it is not zero and of
    the other sign. -/
def remW (x d : BitVec 32) : BitVec 32 :=
  Scalar.select
    (IntOp.andi (IntOp.cmpi .ne (IntOp.cmpi .slt (IntOp.remsi .host x (nzW d)) 0#32) (IntOp.cmpi .slt (nzW d) 0#32))
      (IntOp.cmpi .ne (IntOp.remsi .host x (nzW d)) 0#32))
    (IntOp.addi (IntOp.remsi .host x (nzW d)) (nzW d)) (IntOp.remsi .host x (nzW d))

/-- A negative word wrapped by 27. -/
def wrapW (x : BitVec 32) : BitVec 32 := Scalar.select (IntOp.cmpi .slt x 0#32) (IntOp.addi x 27#32) x

/-- The floor division at a place is the floor division of the word there. -/
theorem floorDiv_apply (x : IVec S351 32) (d : IVec S_ 32) (j : S351.Idx) :
    floorDiv x d j = fdivW (x j) (d ix0) := by
  simp only [floorDiv, select, andi, cmpi, signi, subi, Host.divsi, Host.remsi, splat351_apply, constantI]
  rfl

theorem nonzero_apply (d : IVec S_ 32) : nonzero d ix0 = nzW (d ix0) := rfl

/-- The remainder at a place is the remainder of the word there. -/
theorem pyRem_apply (x : IVec S351 32) (d : IVec S_ 32) (j : S351.Idx) :
    pyRem x d j = remW (x j) (d ix0) := by
  simp only [pyRem, select, andi, cmpi, addi, Host.remsi, splat351_apply, constantI, nonzero_apply]
  rfl

/-- The wrap at a place is the wrap of the word there. -/
theorem wrap27_apply (x : IVec S351 32) (j : S351.Idx) : wrap27 x j = wrapW (x j) := by
  simp only [wrap27, select, cmpi, addi, splat351_apply, constantI]
  rfl

/-- On a word below 729: floor division by 27, then the remainder by 27 and the wrap, give the quotient by 27. -/
theorem row_word : ∀ K : Fin 729,
    wrapW (remW (fdivW (BitVec.ofNat 32 K.val) 27#32) 27#32) = BitVec.ofNat 32 (K.val / 27 % 27) := by
  decide +kernel

/-- On a word below 729: floor division by 1, then the remainder by 27 and the wrap, give the remainder by 27. -/
theorem col_word : ∀ K : Fin 729,
    wrapW (remW (fdivW (BitVec.ofNat 32 K.val) 1#32) 27#32) = BitVec.ofNat 32 (K.val % 27) := by
  decide +kernel

/-- The position of pair p as a word. -/
theorem flatPos_word (p : Fin 351) :
    flatPos (F := Ideal) (ix1 p) = BitVec.ofNat 32 (27 * Cert.Tri.rowOf p.val + Cert.Tri.colOf p.val) := by
  rw [← flatPos_toNat p, BitVec.ofNat_toNat, BitVec.setWidth_eq]

theorem rowIdx_apply (p : Fin 351) : rowIdx (F := Ideal) (ix1 p) = BitVec.ofNat 32 (Cert.Tri.rowOf p.val) := by
  have hc := Cert.Tri.colOf_lt p
  have hr := Cert.Tri.rowOf_lt p
  have hK := Cert.Tri.pos_lt p
  have h := row_word ⟨27 * Cert.Tri.rowOf p.val + Cert.Tri.colOf p.val, hK⟩
  have hq : (27 * Cert.Tri.rowOf p.val + Cert.Tri.colOf p.val) / 27 % 27 = Cert.Tri.rowOf p.val := by omega
  simp only [hq] at h
  rw [← h]
  simp only [rowIdx, wrap27_apply, pyRem_apply, floorDiv_apply, flatPos_word, constantI]

theorem colIdx_apply (p : Fin 351) : colIdx (F := Ideal) (ix1 p) = BitVec.ofNat 32 (Cert.Tri.colOf p.val) := by
  have hc := Cert.Tri.colOf_lt p
  have hK := Cert.Tri.pos_lt p
  have h := col_word ⟨27 * Cert.Tri.rowOf p.val + Cert.Tri.colOf p.val, hK⟩
  have hq : (27 * Cert.Tri.rowOf p.val + Cert.Tri.colOf p.val) % 27 = Cert.Tri.colOf p.val := by omega
  simp only [hq] at h
  rw [← h]
  simp only [colIdx, wrap27_apply, pyRem_apply, floorDiv_apply, flatPos_word, constantI]

end Cert.ReferenceIdeal.Stages

end
-- ==== Proof.RefIsG.lean ====
/-
  The reference's stages compose to the specification: the gather reads, per batch row, the Gram matrix of the 27
  features at (row p, column p), the table holding exactly those numbers.
-/
import proofs.«147877_j790273983046_1_alg».proof.Proof.RowCol
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen Idealize.ShloMosaic Idealize.ShloMosaic.ValueIdx

local notation "gd" => gather_S65536x27x27_S351x2_S65536x351_0_12_n_n_12_1_6553611

/-- The gather at (b, p): batch row b of the operand at the two start indices of table row p, each read signed and
    clamped into 0 … 26 (the slice is one entry wide on both gathered axes and the whole batch axis). -/
theorem gather_pairs {α : Type} (x : S65536x27x27.Idx → α) (idx : IVec S351x2 32) (b : Fin 65536) (p : Fin 351) :
    Host.gather gd x idx (ix2 b p)
      = x (ix3 b (⟨min (idx (ix2 p (0 : Fin 2))).toInt.toNat 26, by omega⟩ : Fin 27)
            (⟨min (idx (ix2 p (1 : Fin 2))).toInt.toNat 26, by omega⟩ : Fin 27)) := by
  unfold Host.gather
  congr 1
  funext a
  refine Fin.ext ?_
  have hb : ∀ a : Fin 3, a ∉ (gd).operandBatchingDims := fun a => List.not_mem_nil
  match a with
  | ⟨0, _⟩ =>
    show (gd).start (ix2 b p) idx 0 + (gd).batchCoord (ix2 b p) 0 + (gd).offCoord (ix2 b p) 0 = b.val
    rw [GatherDims.batchCoord_eq_zero _ _ _ (hb 0)]
    have hs : (gd).start (ix2 b p) idx 0 = 0 := by
      unfold GatherDims.start; rw [dif_neg (by decide)]
    have ho : (gd).offCoord (ix2 b p) 0 = b.val := by
      unfold GatherDims.offCoord; rw [dif_pos (by decide)]; rfl
    rw [hs, ho]; omega
  | ⟨1, _⟩ =>
    show (gd).start (ix2 b p) idx 1 + (gd).batchCoord (ix2 b p) 1 + (gd).offCoord (ix2 b p) 1 = min (idx (ix2 p (0 : Fin 2))).toInt.toNat 26
    rw [GatherDims.batchCoord_eq_zero _ _ _ (hb 1), GatherDims.offCoord_eq_zero _ _ _ (by decide)]
    simp only [Nat.add_zero]
    unfold GatherDims.start
    rw [dif_pos (by decide)]
    have hsi : (gd).siIdx (ix2 b p) ⟨List.idxOf (1 : Fin 3) (gd).startIndexMap, List.idxOf_lt_length_iff.2 (by decide)⟩ = ix2 p (0 : Fin 2) := by
      funext c; refine Fin.ext ?_
      match c with
      | ⟨0, _⟩ => rfl
      | ⟨1, _⟩ => rfl
    rw [hsi]
    rfl
  | ⟨2, _⟩ =>
    show (gd).start (ix2 b p) idx 2 + (gd).batchCoord (ix2 b p) 2 + (gd).offCoord (ix2 b p) 2 = min (idx (ix2 p (1 : Fin 2))).toInt.toNat 26
    rw [GatherDims.batchCoord_eq_zero _ _ _ (hb 2), GatherDims.offCoord_eq_zero _ _ _ (by decide)]
    simp only [Nat.add_zero]
    unfold GatherDims.start
    rw [dif_pos (by decide)]
    have hsi : (gd).siIdx (ix2 b p) ⟨List.idxOf (2 : Fin 3) (gd).startIndexMap, List.idxOf_lt_length_iff.2 (by decide)⟩ = ix2 p (1 : Fin 2) := by
      funext c; refine Fin.ext ?_
      match c with
      | ⟨0, _⟩ => rfl
      | ⟨1, _⟩ => rfl
    rw [hsi]
    rfl

/-- Column 0 of the table is the row index, -/
theorem pairIdx_row (p : Fin 351) : pairIdx (F := Ideal) (ix2 p (0 : Fin 2)) = BitVec.ofNat 32 (Cert.Tri.rowOf p.val) := by
  unfold pairIdx
  rw [concatenate_pair_apply_left (t := S351x2) (s₁ := S351x1) (s₂ := S351x1) (1 : Fin 2) _ _ concatenates_S351x1_S351x1_S351x2_d1 (ix2 p (0 : Fin 2)) rfl
    (StableHlo.Predicate.ixP p) (fun c => by match c with | ⟨0, _⟩ => rfl | ⟨1, _⟩ => rfl)]
  have e : (Shape.Idx.ofFin p : S351.Idx) = ix1 p := by funext d; match d with | ⟨0, _⟩ => rfl
  exact ((StableHlo.Predicate.bcast_col1 (n := 351) bcast_S351_S351x1_0 (rowIdx (F := Ideal)) p).trans
    (congrArg (rowIdx (F := Ideal)) e)).trans (rowIdx_apply p)

/-- column 1 the column index. -/
theorem pairIdx_col (p : Fin 351) : pairIdx (F := Ideal) (ix2 p (1 : Fin 2)) = BitVec.ofNat 32 (Cert.Tri.colOf p.val) := by
  unfold pairIdx
  rw [concatenate_pair_apply_right (t := S351x2) (s₁ := S351x1) (s₂ := S351x1) (1 : Fin 2) _ _ concatenates_S351x1_S351x1_S351x2_d1 (ix2 p (1 : Fin 2)) rfl rfl
    (StableHlo.Predicate.ixP p) (fun c hc => by match c with | ⟨0, _⟩ => rfl | ⟨1, _⟩ => exact absurd rfl hc) rfl]
  have e : (Shape.Idx.ofFin p : S351.Idx) = ix1 p := by funext d; match d with | ⟨0, _⟩ => rfl
  exact ((StableHlo.Predicate.bcast_col1 (n := 351) bcast_S351_S351x1_0 (colIdx (F := Ideal)) p).trans
    (congrArg (colIdx (F := Ideal)) e)).trans (colIdx_apply p)

local notation "dd" => dot_S65536x27x128_S65536x27x128_S65536x27x27_2_2_1_1_0_0

/-- Entry (b, f, k) of the 27 features. -/
theorem features_apply (x0 : FVec Ideal S65536x128 .f32) (x1 : FVec Ideal S65536x26x128 .f32) (b : Fin 65536) (f : Fin 27)
    (k : Fin 128) : features (F := Ideal) x0 x1 (ix3 b f k) = Cert.Tri.feat x0 x1 b f k := by
  unfold features Cert.Tri.feat
  by_cases h : f.val = 0
  · rw [dif_pos h]
    rw [concatenate_pair_apply_left (t := S65536x27x128) (s₁ := S65536x1x128) (s₂ := S65536x26x128) (1 : Fin 3) _ _
      concatenates_S65536x1x128_S65536x26x128_S65536x27x128_d1 (ix3 b f k) rfl (ix3 b (0 : Fin 1) k)
      (fun c => by match c with | ⟨0, _⟩ => rfl | ⟨1, _⟩ => exact h.symm | ⟨2, _⟩ => rfl)]
    simp only [broadcastInDim]
    congr 1
    funext a
    match a with
    | ⟨0, _⟩ => rfl
    | ⟨1, _⟩ => rfl
  · rw [dif_neg h]
    exact concatenate_pair_apply_right (t := S65536x27x128) (s₁ := S65536x1x128) (s₂ := S65536x26x128) (1 : Fin 3) _ _
      concatenates_S65536x1x128_S65536x26x128_S65536x27x128_d1 (ix3 b f k) rfl rfl
      (ix3 b (⟨f.val - 1, by have := f.isLt; omega⟩ : Fin 26) k)
      (fun c hc => by match c with | ⟨0, _⟩ => rfl | ⟨1, _⟩ => exact absurd rfl hc | ⟨2, _⟩ => rfl)
      (by show f.val - 1 + 1 = f.val; omega)

/-- The Gram matrix at (b, f, g): the contraction runs over the one axis of length 128. -/
theorem gramAll_apply (x0 : FVec Ideal S65536x128 .f32) (x1 : FVec Ideal S65536x26x128 .f32) (b : Fin 65536) (f g : Fin 27) :
    gramAll (F := Ideal) x0 x1 (ix3 b f g) = Cert.Tri.gram x0 x1 b f g := by
  unfold gramAll Cert.Tri.gram
  simp only [Host.dotGeneral]
  rw [Ideal.dotGeneral_apply]
  rw [← Equiv.sum_comp (contrEquiv1 dd 128 rfl rfl).symm]
  refine Finset.sum_congr rfl fun k _ => ?_
  have hl : (dd).lhsIdx (ix3 b f g) ((contrEquiv1 dd 128 rfl rfl).symm k) = ix3 b f k := by
    funext a; refine Fin.ext ?_
    match a with
    | ⟨0, _⟩ => rfl
    | ⟨1, _⟩ => rfl
    | ⟨2, _⟩ => exact ((dd).lhsIdx_val_of_single rfl _ _).trans (contrEquiv1_symm_val dd 128 rfl rfl k)
  have hr : (dd).rhsIdx (ix3 b f g) ((contrEquiv1 dd 128 rfl rfl).symm k) = ix3 b g k := by
    funext a; refine Fin.ext ?_
    match a with
    | ⟨0, _⟩ => rfl
    | ⟨1, _⟩ => rfl
    | ⟨2, _⟩ => exact ((dd).rhsIdx_val_of_single rfl _ _).trans (contrEquiv1_symm_val dd 128 rfl rfl k)
  rw [hl, hr, features_apply, features_apply]

/-- A word below 27 read signed and clamped into 0 … 26 is itself. -/
theorem clamp_small (n : Nat) (hn : n < 27) : min (BitVec.ofNat 32 n).toInt.toNat 26 = n := by
  have h : (BitVec.ofNat 32 n).toInt = (n : Int) := StableHlo.Predicate.toInt_ofNat_small n (by omega)
  rw [h, Int.toNat_natCast]; omega

theorem result_eq (x0 : FVec Ideal S65536x128 .f32) (x1 : FVec Ideal S65536x26x128 .f32) :
    result (F := Ideal) x0 x1 = Cert.Tri.G x0 x1 := by
  funext i
  obtain ⟨b, p, rfl⟩ : ∃ (b : Fin 65536) (p : Fin 351), i = ix2 b p := ⟨i 0, i 1, eq_ix2 i⟩
  rw [Cert.Tri.G_apply]
  unfold result
  rw [gather_pairs]
  -- the two table words, named before anything looks inside them
  have key : ∀ (w0 w1 : BitVec 32) (_ : w0 = BitVec.ofNat 32 (Cert.Tri.rowOf p.val)) (_ : w1 = BitVec.ofNat 32 (Cert.Tri.colOf p.val))
      (pf0 : min w0.toInt.toNat 26 < 27) (pf1 : min w1.toInt.toNat 26 < 27),
      gramAll (F := Ideal) x0 x1 (ix3 b (⟨min w0.toInt.toNat 26, pf0⟩ : Fin 27) (⟨min w1.toInt.toNat 26, pf1⟩ : Fin 27))
        = Cert.Tri.gram x0 x1 b (Cert.Tri.row p) (Cert.Tri.col p) := by
    intro w0 w1 h0 h1 pf0 pf1
    subst h0 h1
    have hrow : (⟨min (BitVec.ofNat 32 (Cert.Tri.rowOf p.val)).toInt.toNat 26, pf0⟩ : Fin 27) = Cert.Tri.row p :=
      Fin.ext (clamp_small _ (Nat.lt_succ_of_lt (Cert.Tri.rowOf_lt p)))
    have hcol : (⟨min (BitVec.ofNat 32 (Cert.Tri.colOf p.val)).toInt.toNat 26, pf1⟩ : Fin 27) = Cert.Tri.col p :=
      Fin.ext (clamp_small _ (Cert.Tri.colOf_lt p))
    rw [hrow, hcol]
    exact gramAll_apply x0 x1 b (Cert.Tri.row p) (Cert.Tri.col p)
  exact key _ _ (pairIdx_row p) (pairIdx_col p) _ _

end Cert.ReferenceIdeal.Stages

end
-- ==== Proof.lean ====
/-
  The kernel computes, per batch row, the inner products of the 351 pairs i < j of its 27 feature vectors (the dense row
  and the 26 sparse ones): it multiplies the 27 × 128 feature matrix by its transpose on the matrix unit and lays rows
  0 … 25 of the product, each from its diagonal on, end to end. The reference forms the same Gram matrix with one
  contraction and gathers it at a table of (row, column) pairs that it builds at run time — the positions of the nonzero
  entries of a strictly upper-triangular matrix of ones, found by two running sums and a histogram, then split by 27.

  Over the extended reals the change of format before the kernel's product is the identity and both products are the
  same sum of 128 products. What remains is that the two enumerations of the pairs agree: pair number p of the row-major
  order is the one the kernel's concatenation puts at column p, and it is the one the reference's table holds at p
  (Pairs.lean states the enumeration; PrefixCount, Counts, FlatPos and RowCol decode the reference's table; KernelValue
  reads the kernel's block; RefIsG the reference's gather). No law of arithmetic beyond that is used, so the inputs'
  finiteness is not needed.
-/
import proofs.«147877_j790273983046_1_alg».proof.Defs
import proofs.«147877_j790273983046_1_alg».proof.Proof.Gen.Kernel
import proofs.«147877_j790273983046_1_alg».proof.Proof.Gen.Kernel.Frame
import proofs.«147877_j790273983046_1_alg».proof.Proof.Gen.KernelIdeal
import proofs.«147877_j790273983046_1_alg».proof.Proof.Gen.KernelIdeal.Frame
import proofs.«147877_j790273983046_1_alg».proof.Proof.Gen.KernelIdeal.Value
import proofs.«147877_j790273983046_1_alg».proof.Proof.Gen.ReferenceIdeal
import proofs.«147877_j790273983046_1_alg».proof.Proof.Gen.Pre_finite_inputs
import proofs.«147877_j790273983046_1_alg».proof.Proof.KernelValue
import proofs.«147877_j790273983046_1_alg».proof.Proof.RefValue
import proofs.«147877_j790273983046_1_alg».proof.Proof.RefIsG
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ
/-- So does its reading over the extended reals. -/
theorem frame_ki : Cert.frame_KernelIdeal := fun m ρ _ => Cert.KernelIdeal.Gen.frame m ρ
/-- The reference is a straight line of host operations, none of which writes an argument. -/
theorem frame_ri : Cert.frame_ReferenceIdeal := fun m ρ _ =>
  (θ_run Cert.ReferenceIdeal.defs _ _).mono (fun _ h c => (h c).2) (Cert.ReferenceIdeal.Ops.run (F := Ideal) m ρ)

/-- Both programs end with the array of pair products of their (equal) arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Ops.run (F := Ideal) m' ρ')
  rw [(hagree c).1, (hagree c).2]
  exact Cert.ReferenceIdeal.Stages.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
